-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x10000 .f32) (main_arg1 : FVec F S10000x128 .f32) (main_arg2 : FVec F S128x128 .f32) (main_arg3 : FVec F S128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S200x10000 : Shape := ⟨2, ![200, 10000]⟩
abbrev S200x128 : Shape := ⟨2, ![200, 128]⟩

abbrev nBuf : Space → Nat
  | .hbm => 8
  | .vmem => 11
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S5000x128, .f32⟩
  | .hbm, ⟨6, _⟩ => ⟨S5000x128, .f32⟩
  | .hbm, ⟨7, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S200x128, .f32⟩
  | .local _ .vmem, ⟨8, _⟩ => ⟨S200x128, .f32⟩
  | .local _ .vmem, ⟨9, _⟩ => ⟨S200x128, .f32⟩
  | .local _ .vmem, ⟨10, _⟩ => ⟨S200x128, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S200x10000_S200x10000_0_0 : ∀ a, (![0, 0] : Fin 2 → Nat) a + S200x10000.size a ≤ S200x10000.size a
  h_S200x10000 : 0 < S200x10000.numel
  broadcasts_S1x128_S200x128 : S1x128.Broadcasts S200x128
  inb_S200x128_S200x128_0_0 : ∀ a, (![0, 0] : Fin 2 → Nat) a + S200x128.size a ≤ S200x128.size a
  h_S200x128 : 0 < S200x128.numel
  concatenates_S5000x128_S5000x128_S10000x128_d0 : Shape.Concatenates [S5000x128, S5000x128] S10000x128 0
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S5000x128.size a
  hwx0_5 : ∀ i : grid0.Coords, EltTy.bits .f32 = 32 ∨ (Rect.block (s := S5000x128) S200x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S5000x128.size a
  hwx0_6 : ∀ i : grid0.Coords, EltTy.bits .f32 = 32 ∨ (Rect.block (s := S5000x128) S200x128.size (cc0_transform_6 i) (hinb0_6 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S200x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S10000x128, .f32⟩
  | .hbm, ⟨16, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.StepBits.lean ====
/-
  One grid step of the fused layer, as a statement about its seven staging buffers.

  The step reads the feature matrix, the weight matrix and the bias row (the same at every step) and two row blocks of
  the adjacency matrix, one from its upper half and one from its lower half. Into each of its two output blocks it
  stores the logistic function of (row block · features) · weights + bias. The five input buffers are left as they
  were found.
-/
import proofs.«110271_g65781719105877_cont_9to1c4b_269_13_alg».proof.Proof.Gen.Kernel.Launch
import proofs.«110271_g65781719105877_cont_9to1c4b_269_13_alg».proof.Proof.Gen.Kernel.Skeleton
import proofs.«110271_g65781719105877_cont_9to1c4b_269_13_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the step reads and writes: each is its whole buffer -/

abbrev rFeat : Rect S10000x128 := Rect.unit (s := S10000x128) ![0, 0] S10000x128.size inb_S10000x128_S10000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0
abbrev rAdj : Rect S200x10000 := Rect.unit (s := S200x10000) ![0, 0] S200x10000.size inb_S200x10000_S200x10000_0_0
abbrev rOut : Rect S200x128 := Rect.unit (s := S200x128) ![0, 0] S200x128.size inb_S200x128_S200x128_0_0

/-! ## What the step leaves in each output block -/

/-- The upper output block: the one store's value, over the features, the weights, the bias row and the upper row
    block of the adjacency matrix. -/
def outUpper (feat : Vec F S10000x128 .f32) (wt : Vec F S128x128 .f32) (bias : Vec F S1x128 .f32) (adj : Vec F S200x10000 .f32) :
    Vec F S200x128 .f32 :=
  View.canon [⟨rOut, k0_pay2 (View.ld feat rFeat) (View.ld wt rWeight) (View.ld bias rBias) (View.ld adj rAdj)⟩]

/-- The lower output block: the same expression over the lower row block. -/
def outLower (feat : Vec F S10000x128 .f32) (wt : Vec F S128x128 .f32) (bias : Vec F S1x128 .f32) (adj : Vec F S200x10000 .f32) :
    Vec F S200x128 .f32 :=
  View.canon [⟨rOut, k0_pay3 (View.ld feat rFeat) (View.ld wt rWeight) (View.ld bias rBias) (View.ld adj rAdj)⟩]

/-- One store of the whole block covers the block. -/
theorem cover_out (p0 : Vec F S200x128 .f32) (y : S200x128.Idx) :
    ∃ pc ∈ ([⟨rOut, p0⟩] : List (View.Piece (Elt F) S200x128 .f32)), y ∈ pc.1.set :=
  View.cover_of_tiled [⟨rOut, p0⟩] S200x128.size (by rfl) y

/-! ## The step's triple -/

set_option maxHeartbeats 1000000 in
/-- From the five input buffers at given contents and the two output buffers at anything, the step runs to the end,
    leaves the inputs as they were and the outputs at `outUpper` and `outLower` of the inputs. -/
theorem sound_kernel (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S200x10000 .f32) (harg4 : arg4.IsWhole)
    (arg5 : Memref sig .tc .vmem S200x10000 .f32) (harg5 : arg5.IsWhole) (arg6 : Memref sig .tc .vmem S200x128 .f32) (harg6 : arg6.IsWhole)
    (arg7 : Memref sig .tc .vmem S200x128 .f32) (harg7 : arg7.IsWhole)
    (feat : Vec F S10000x128 .f32) (wt : Vec F S128x128 .f32) (bias : Vec F S1x128 .f32)
    (adjU adjL : Vec F S200x10000 .f32) (K : PUnit → sProp 𝕄) :
    iprop(owns (c : Thread nD τ) arg1 fullShare feat ∗ owns (c : Thread nD τ) arg2 fullShare wt ∗ owns (c : Thread nD τ) arg3 fullShare bias
        ∗ owns (c : Thread nD τ) arg4 fullShare adjU ∗ owns (c : Thread nD τ) arg5 fullShare adjL
        ∗ (∃ d, owns (c : Thread nD τ) arg6 fullShare d) ∗ (∃ d, owns (c : Thread nD τ) arg7 fullShare d)
        ∗ (iprop(owns (c : Thread nD τ) arg1 fullShare feat ∗ owns (c : Thread nD τ) arg2 fullShare wt ∗ owns (c : Thread nD τ) arg3 fullShare bias
            ∗ owns (c : Thread nD τ) arg4 fullShare adjU ∗ owns (c : Thread nD τ) arg5 fullShare adjL
            ∗ owns (c : Thread nD τ) arg6 fullShare (outUpper feat wt bias adjU)
            ∗ owns (c : Thread nD τ) arg7 fullShare (outLower feat wt bias adjL)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  · iexists _; isplitr
    swap; · iexact H7
    ipureintro
    exact View.read_writes_eq_canon _ _ _ (cover_out _)

end Cert.Kernel.Hand

end
-- ==== Proof.DataBits.lean ====
/-
  What each staging buffer holds from grid step to grid step, and the step's triple read as the pipeline's obligation.

  The five input windows are only read: whenever the step runs, each holds the block of its array that the step's
  grid position names. The two output windows are stored whole at every step. The adjacency matrix is handed to the
  pipeline through two windows (its upper and its lower row blocks); each window holds half of the array's share.
-/
import proofs.«110271_g65781719105877_cont_9to1c4b_269_13_alg».proof.Proof.StepBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The device's buffers when the region is entered: the launch contents after the one host operation before the
    region (the bias vector reshaped to a row). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After each step every input window holds its block and each output window the step's value of the input blocks;
    nothing else is kept between steps; the two windows on the adjacency matrix hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outUpper (iblk m c 0 t) (iblk m c 1 t) (iblk m c 2 t) (iblk m c 3 t)
    | ⟨6, _⟩ => outLower (iblk m c 0 t) (iblk m c 1 t) (iblk m c 2 t) (iblk m c 4 t)
  Φ _ := Pipeline.ΦA spec0 c
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outUpper (iblk m c 0 t) (iblk m c 1 t) (iblk m c 2 t) (iblk m c 3 t) := by dsimp only [dats]
theorem after0_6 (c : Dev nD) (t : Fin cfg0.N) :
    (dats m 0 c).after 6 t = outLower (iblk m c 0 t) (iblk m c 1 t) (iblk m c 2 t) (iblk m c 4 t) := by dsimp only [dats]

/-! ## An input window holds its block at every step, fetched there or not -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The step as the pipeline's obligation -/

/-- What the step is called with at `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## What the result array holds at the end -/

/-- Two half-height arrays, one above the other. -/
def stack (a b : (⟨S5000x128, .f32⟩ : BufTy).Contents (Elt F)) : (⟨S10000x128, .f32⟩ : BufTy).Contents (Elt F) :=
  concatenate S10000x128 0 [⟨S5000x128, a⟩, ⟨S5000x128, b⟩] concatenates_S5000x128_S5000x128_S10000x128_d0

/-- The two output arrays, as the last grid step leaves them, stacked. -/
def result (c : Dev nD) : Buf (Elt F) ((c : Thread nD τ).loc main_v2) :=
  stack ((dats m 0 c).arrAt 5 cfg0.N) ((dats m 0 c).arrAt 6 cfg0.N)

end Cert.Kernel.Hand

end
-- ==== Proof.LaunchBits.lean ====
/-
  The run of the whole program: the bias vector reshaped to a row, the fused region over its 25 grid steps, the two
  output arrays put one above the other.
-/
import proofs.«110271_g65781719105877_cont_9to1c4b_269_13_alg».proof.Proof.DataBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg2) ↦{fullShare} W main_arg2)
          ∗ (((c : Thread nD τ).loc main_v0) ↦{fullShare} W main_v0) ∗ (((c : Thread nD τ).loc main_arg0) ↦{fullShare} W main_arg0)
          ∗ (((c : Thread nD τ).loc main_v1_0) ↦{fullShare} W main_v1_0) ∗ (((c : Thread nD τ).loc main_v1_1) ↦{fullShare} W main_v1_1)) := by
  unfold Pipeline.arrBufs
  exact bigSep_eq_bigSepL_of_eq [main_arg1, main_arg2, main_v0, main_arg0, main_v1_0, main_v1_1] (by decide) (by decide) _

theorem share0 (c : Dev nD) : (dats m 0 c).share 0 = fullShare := rfl
theorem set0 : (cfg0.win 0).arr.view.set = Finset.univ := (arr_whole0 0).set_eq_univ
theorem pt0 (c : Dev nD) (q : PosShare TreeShare) (g : Buf (Elt F) ((cfg0.win 0).arr.view.loc (c.tc : Thread nD τ))) :
    (((cfg0.win 0).arr.view.loc (c.tc : Thread nD τ)) ↦[(cfg0.win 0).arr.view.set]{q} g : sProp 𝕄)
      = (((c : Thread nD τ).loc main_arg1) ↦{q} g) := by
  rw [set0]
theorem share1 (c : Dev nD) : (dats m 0 c).share 1 = fullShare := rfl
theorem set1 : (cfg0.win 1).arr.view.set = Finset.univ := (arr_whole0 1).set_eq_univ
theorem pt1 (c : Dev nD) (q : PosShare TreeShare) (g : Buf (Elt F) ((cfg0.win 1).arr.view.loc (c.tc : Thread nD τ))) :
    (((cfg0.win 1).arr.view.loc (c.tc : Thread nD τ)) ↦[(cfg0.win 1).arr.view.set]{q} g : sProp 𝕄)
      = (((c : Thread nD τ).loc main_arg2) ↦{q} g) := by
  rw [set1]
theorem share2 (c : Dev nD) : (dats m 0 c).share 2 = fullShare := rfl
theorem set2 : (cfg0.win 2).arr.view.set = Finset.univ := (arr_whole0 2).set_eq_univ
theorem pt2 (c : Dev nD) (q : PosShare TreeShare) (g : Buf (Elt F) ((cfg0.win 2).arr.view.loc (c.tc : Thread nD τ))) :
    (((cfg0.win 2).arr.view.loc (c.tc : Thread nD τ)) ↦[(cfg0.win 2).arr.view.set]{q} g : sProp 𝕄)
      = (((c : Thread nD τ).loc main_v0) ↦{q} g) := by
  rw [set2]
theorem share3 (c : Dev nD) : (dats m 0 c).share 3 = fullShare.left := rfl
theorem set3 : (cfg0.win 3).arr.view.set = Finset.univ := (arr_whole0 3).set_eq_univ
theorem pt3 (c : Dev nD) (q : PosShare TreeShare) (g : Buf (Elt F) ((cfg0.win 3).arr.view.loc (c.tc : Thread nD τ))) :
    (((cfg0.win 3).arr.view.loc (c.tc : Thread nD τ)) ↦[(cfg0.win 3).arr.view.set]{q} g : sProp 𝕄)
      = (((c : Thread nD τ).loc main_arg0) ↦{q} g) := by
  rw [set3]
theorem share4 (c : Dev nD) : (dats m 0 c).share 4 = fullShare.right := rfl
theorem set4 : (cfg0.win 4).arr.view.set = Finset.univ := (arr_whole0 4).set_eq_univ
theorem pt4 (c : Dev nD) (q : PosShare TreeShare) (g : Buf (Elt F) ((cfg0.win 4).arr.view.loc (c.tc : Thread nD τ))) :
    (((cfg0.win 4).arr.view.loc (c.tc : Thread nD τ)) ↦[(cfg0.win 4).arr.view.set]{q} g : sProp 𝕄)
      = (((c : Thread nD τ).loc main_arg0) ↦{q} g) := by
  rw [set4]
theorem share5 (c : Dev nD) : (dats m 0 c).share 5 = fullShare := rfl
theorem set5 : (cfg0.win 5).arr.view.set = Finset.univ := (arr_whole0 5).set_eq_univ
theorem pt5 (c : Dev nD) (q : PosShare TreeShare) (g : Buf (Elt F) ((cfg0.win 5).arr.view.loc (c.tc : Thread nD τ))) :
    (((cfg0.win 5).arr.view.loc (c.tc : Thread nD τ)) ↦[(cfg0.win 5).arr.view.set]{q} g : sProp 𝕄)
      = (((c : Thread nD τ).loc main_v1_0) ↦{q} g) := by
  rw [set5]
theorem share6 (c : Dev nD) : (dats m 0 c).share 6 = fullShare := rfl
theorem set6 : (cfg0.win 6).arr.view.set = Finset.univ := (arr_whole0 6).set_eq_univ
theorem pt6 (c : Dev nD) (q : PosShare TreeShare) (g : Buf (Elt F) ((cfg0.win 6).arr.view.loc (c.tc : Thread nD τ))) :
    (((cfg0.win 6).arr.view.loc (c.tc : Thread nD τ)) ↦[(cfg0.win 6).arr.view.set]{q} g : sProp 𝕄)
      = (((c : Thread nD τ).loc main_v1_1) ↦{q} g) := by
  rw [set6]

theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_arg1) ↦{fullShare} G 0) ∗ (((c : Thread nD τ).loc main_arg2) ↦{fullShare} G 1)
          ∗ (((c : Thread nD τ).loc main_v0) ↦{fullShare} G 2) ∗ (((c : Thread nD τ).loc main_arg0) ↦{fullShare.left} G 3)
          ∗ (((c : Thread nD τ).loc main_arg0) ↦{fullShare.right} G 4)
          ∗ (((c : Thread nD τ).loc main_v1_0) ↦{fullShare} G 5) ∗ (((c : Thread nD τ).loc main_v1_1) ↦{fullShare} G 6)) := by
  unfold Dat.arrays
  rw [bigSep_W0, pt0, pt1, pt2, pt3, pt4, pt5, pt6, share0, share1, share2, share3, share4, share5, share6]

/-- The buffers behind the seven windows' arrays, whole, make the pipeline's arrays at entry: the adjacency matrix's
    buffer is split in two halves of its share, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H1, H2, H3, H0, H5, H6⟩
  ihave H0 := (pointsTo_share (PosShare.mem_left_op_right fullShare)).1 $$ H0
  icases H0 with ⟨H0l, H0r⟩
  isplitl [H1]; · iexact H1
  isplitl [H2]; · iexact H2
  isplitl [H3]; · iexact H3
  isplitl [H0l]; · iexact H0l
  isplitl [H0r]; · iexact H0r
  isplitl [H5]; · iexact H5
  iexact H6

/-! ## The one host operation after the region -/

/-- The device's buffers at the region's exit: the windows' arrays at the contents `A`, everything else as the region
    found it. Read at the array of a window that shares its array with no other window it is that window's `A`. -/
theorem exit_at (c : Dev nD) (W : Valuation τ sig (Elt F)) (A : (w : Fin 7) → Buf (Elt F) ((spec0 w).arr.view.loc (c.tc : Thread nD τ)))
    (w : Fin 7) (hu : ∀ w', Pipeline.arrRef spec0 w' = Pipeline.arrRef spec0 w → w' = w) :
    Pipeline.withArrays spec0 c W A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 7) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := hu w' (Proc.devRef_injective _ e)
  rfl

theorem exit_upper (c : Dev nD) (W : Valuation τ sig (Elt F)) (A : (w : Fin 7) → Buf (Elt F) ((spec0 w).arr.view.loc (c.tc : Thread nD τ))) :
    Pipeline.withArrays spec0 c W A (Proc.devRef .tc main_v1_0) = A 5 := exit_at c W A 5 (by decide)
theorem exit_lower (c : Dev nD) (W : Valuation τ sig (Elt F)) (A : (w : Fin 7) → Buf (Elt F) ((spec0 w).arr.view.loc (c.tc : Thread nD τ))) :
    Pipeline.withArrays spec0 c W A (Proc.devRef .tc main_v1_1) = A 6 := exit_at c W A 6 (by decide)
theorem exit_result (c : Dev nD) (W : Valuation τ sig (Elt F)) (A : (w : Fin 7) → Buf (Elt F) ((spec0 w).arr.view.loc (c.tc : Thread nD τ))) :
    Pipeline.withArrays spec0 c W A (Proc.devRef .tc main_v2) = W (Proc.devRef .tc main_v2) :=
  Pipeline.withArrays_of_ne spec0 c W A main_v2 (by decide)

/-- The three buffers the concatenation touches. -/
abbrev tailSet : Finset (DevRef τ sig) := {Proc.devRef .tc main_v1_0, Proc.devRef .tc main_v1_1, Proc.devRef .tc main_v2}

theorem held_tailSet (c : Dev nD) (W : Valuation τ sig (Elt F)) :
    (StableHlo.held (c.tc : Thread nD τ) tailSet W : sProp 𝕄)
      = iprop((((c : Thread nD τ).loc main_v1_0) ↦{fullShare} W (Proc.devRef .tc main_v1_0))
          ∗ (((c : Thread nD τ).loc main_v1_1) ↦{fullShare} W (Proc.devRef .tc main_v1_1))
          ∗ (((c : Thread nD τ).loc main_v2) ↦{fullShare} W (Proc.devRef .tc main_v2))) := by
  unfold StableHlo.held tailSet
  rw [bigSep_insert (by decide), bigSep_insert (by decide), bigSep_singleton]
  rfl

set_option backward.isDefEq.respectTransparency.types false in
/-- From the region's exit, with the windows' arrays at any contents `G`, the concatenation runs within the two output
    arrays and the result array and leaves the result array at the two output arrays stacked; everything else is
    handed back untouched. -/
theorem tail_run (𝒱₀ : Variants) (c : Dev nD) (G : (w : Fin cfg0.W) → Buf (Elt F) ((cfg0.win w).arr.view.loc (c.tc : Thread nD τ)))
    (Q' : PUnit → sProp 𝕄) :
    iprop((iprop((dats m 0 c).arrays G
              ∗ ((((c : Thread nD τ).loc main_arg3) ↦{fullShare} V m c main_arg3) ∗ (((c : Thread nD τ).loc main_v2) ↦{fullShare} stack (G 5) (G 6)))) -∗ Q' ⟨⟩)
        ∗ boundary (c.tc : Thread nD τ) ∗ (dats m 0 c).arrays G
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  rw [unscopedRest0_eq, arrays_eq,
    show (Pipeline.chain [StableHlo.seq hostOps1] : Prog (TpuEff nD τ sig (Elt F) (Pipeline.Sig Λ₀ (Fin 1) fun p => ((cfgs p).toPCfg (Val := Elt F)).Adm) .tc) PUnit)
      = Pipeline.chain (([hostOps1] : List (List (HloOp τ sig (Elt F)))).map StableHlo.seq ++ []) from rfl]
  iintro ⟨Hk, Hb, ⟨H1, H2, H3, H0l, H0r, H5, H6⟩, ⟨Ha3, Hv2⟩⟩
  have hW : (StableHlo.held (c.tc : Thread nD τ) tailSet (Pipeline.withArrays spec0 c (V0 m c) G) : sProp 𝕄)
      = iprop((((c : Thread nD τ).loc main_v1_0) ↦{fullShare} G 5) ∗ (((c : Thread nD τ).loc main_v1_1) ↦{fullShare} G 6)
          ∗ (((c : Thread nD τ).loc main_v2) ↦{fullShare} V m c main_v2)) := by
    rw [held_tailSet, exit_upper, exit_lower, exit_result]
  have hW' : (StableHlo.held (c.tc : Thread nD τ) tailSet (StableHlo.after ([hostOps1] : List (List (HloOp τ sig (Elt F)))).flatten (Pipeline.withArrays spec0 c (V0 m c) G)) : sProp 𝕄)
      = iprop((((c : Thread nD τ).loc main_v1_0) ↦{fullShare} G 5) ∗ (((c : Thread nD τ).loc main_v1_1) ↦{fullShare} G 6)
          ∗ (((c : Thread nD τ).loc main_v2) ↦{fullShare} stack (G 5) (G 6))) := by
    rw [held_tailSet]
    have e5 : StableHlo.after ([hostOps1] : List (List (HloOp τ sig (Elt F)))).flatten (Pipeline.withArrays spec0 c (V0 m c) G) (Proc.devRef .tc main_v1_0) = G 5 := by
      simp only [hostOps1, List.flatten_cons, List.flatten_nil, List.append_nil]
      after_results
      exact exit_upper c _ G
    have e6 : StableHlo.after ([hostOps1] : List (List (HloOp τ sig (Elt F)))).flatten (Pipeline.withArrays spec0 c (V0 m c) G) (Proc.devRef .tc main_v1_1) = G 6 := by
      simp only [hostOps1, List.flatten_cons, List.flatten_nil, List.append_nil]
      after_results
      exact exit_lower c _ G
    have e2 : StableHlo.after ([hostOps1] : List (List (HloOp τ sig (Elt F)))).flatten (Pipeline.withArrays spec0 c (V0 m c) G) (Proc.devRef .tc main_v2) = stack (G 5) (G 6) := by
      simp only [hostOps1, List.flatten_cons, List.flatten_nil, List.append_nil]
      after_results
      rw [exit_upper, exit_lower]
      rfl
    rw [e5, e6, e2]
  have hsub : ∀ ops ∈ ([hostOps1] : List (List (HloOp τ sig (Elt F)))), ∀ op ∈ ops, op.bufs ⊆ tailSet := by
    intro ops hops op hop
    simp only [List.mem_cons, List.mem_nil_iff, or_false] at hops
    rcases hops with rfl
    simp only [hostOps1, List.mem_cons, List.mem_nil_iff, or_false] at hop
    rcases hop with rfl
    rw [StableHlo.binary_bufs]
  have hfresh : ∀ ops ∈ ([hostOps1] : List (List (HloOp τ sig (Elt F)))), ∀ op ∈ ops, op.fresh = ∅ := by
    intro ops hops op hop
    simp only [List.mem_cons, List.mem_nil_iff, or_false] at hops
    rcases hops with rfl
    exact (List.forall_iff_forall_mem.mp hostOps1_fresh) op hop
  iapply (Pipeline.wp_seqs_then (fun q => (cfgs q).toPCfg (Val := Elt F)) defs₀ 𝒱₀ c tailSet [] [hostOps1] hsub hfresh
    (Pipeline.withArrays spec0 c (V0 m c) G)) $$ [Hb H5 H6 Hv2]
  · rw [hW]
    isplitl [Hb]; · iexact Hb
    isplitl [H5]; · iexact H5
    isplitl [H6]; · iexact H6
    iexact Hv2
  iintro Hb
  rw [Pipeline.chain_nil, wp_pure, hW']
  imodintro
  iapply Hk
  icases Hb with ⟨-, H5, H6, Hv2⟩
  isplitr [Ha3 Hv2]
  · isplitl [H1]; · iexact H1
    isplitl [H2]; · iexact H2
    isplitl [H3]; · iexact H3
    isplitl [H0l]; · iexact H0l
    isplitl [H0r]; · iexact H0r
    isplitl [H5]; · iexact H5
    iexact H6
  · isplitl [Ha3]; · iexact Ha3
    iexact Hv2

/-! ## The run -/

set_option backward.isDefEq.respectTransparency.types false in
/-- From any memory with zero counters every weakly fair execution of the program ends, with every window's array at
    what the grid steps' write-backs make of it, the bias vector as the region found it, and the result array at
    the two output arrays stacked. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ r.2.mem ((c.tc : Thread nD τ).loc main_arg3) = V m c main_arg3
      ∧ r.2.mem ((c.tc : Thread nD τ).loc main_v2) = result m c) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop((((c : Thread nD τ).loc main_arg3) ↦{fullShare} V m c main_arg3) ∗ (((c : Thread nD τ).loc main_v2) ↦{fullShare} result m c)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none]
      exact tail_run m Variants.none c _ Q')
    (QY := fun c s => s.mem ((c.tc : Thread nD τ).loc main_arg3) = V m c main_arg3 ∧ s.mem ((c.tc : Thread nD τ).loc main_v2) = result m c)
    (hY := fun c s' => by
      iintro ⟨-, ⟨H3, H2⟩, HSI⟩
      icombine HSI H3 gives %h3
      icombine HSI H2 gives %h2
      imodintro
      isplitr [HSI]
      · ipureintro
        exact ⟨funext fun i => h3 i (Finset.mem_univ i), funext fun i => h2 i (Finset.mem_univ i)⟩
      iexact HSI)
    (hQ := fun s h c => ⟨(h c).1, (h c).2.2.1, (h c).2.2.2⟩)

/-! ## The argument arrays end as they were launched -/

/-- The host operation before the region writes only the bias row, so the region finds each argument array as launched. -/
theorem V_adj (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_feat (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_weight (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_biasvec (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The run, with what it says of the result array and of the four argument arrays: an array the pipeline only
    reads ends at its entry contents, and those are the launch contents. -/
theorem run_result : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).2.2,
     ((h c).1 3).trans (((dats m 0 c).arrAt_in 3 rfl _).trans ((A_eq m c 3).trans (V_adj m c))),
     ((h c).1 0).trans (((dats m 0 c).arrAt_in 0 rfl _).trans ((A_eq m c 0).trans (V_feat m c))),
     ((h c).1 1).trans (((dats m 0 c).arrAt_in 1 rfl _).trans ((A_eq m c 1).trans (V_weight m c))),
     (h c).2.1.trans (V_biasvec m c)⟩) (run_main m ρ)

/-- The frame: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.Kernel.Hand

end
-- ==== Proof.StepIdeal.lean ====
/-
  One grid step of the fused layer, as a statement about its seven staging buffers.

  The step reads the feature matrix, the weight matrix and the bias row (the same at every step) and two row blocks of
  the adjacency matrix, one from its upper half and one from its lower half. Into each of its two output blocks it
  stores the logistic function of (row block · features) · weights + bias. The five input buffers are left as they
  were found.
-/
import proofs.«110271_g65781719105877_cont_9to1c4b_269_13_alg».proof.Proof.Gen.KernelIdeal.Launch
import proofs.«110271_g65781719105877_cont_9to1c4b_269_13_alg».proof.Proof.Gen.KernelIdeal.Skeleton
import proofs.«110271_g65781719105877_cont_9to1c4b_269_13_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the step reads and writes: each is its whole buffer -/

abbrev rFeat : Rect S10000x128 := Rect.unit (s := S10000x128) ![0, 0] S10000x128.size inb_S10000x128_S10000x128_0_0
abbrev rWeight : Rect S128x128 := Rect.unit (s := S128x128) ![0, 0] S128x128.size inb_S128x128_S128x128_0_0
abbrev rBias : Rect S1x128 := Rect.unit (s := S1x128) ![0, 0] S1x128.size inb_S1x128_S1x128_0_0
abbrev rAdj : Rect S200x10000 := Rect.unit (s := S200x10000) ![0, 0] S200x10000.size inb_S200x10000_S200x10000_0_0
abbrev rOut : Rect S200x128 := Rect.unit (s := S200x128) ![0, 0] S200x128.size inb_S200x128_S200x128_0_0

/-! ## What the step leaves in each output block -/

/-- The upper output block: the one store's value, over the features, the weights, the bias row and the upper row
    block of the adjacency matrix. -/
def outUpper (feat : Vec F S10000x128 .f32) (wt : Vec F S128x128 .f32) (bias : Vec F S1x128 .f32) (adj : Vec F S200x10000 .f32) :
    Vec F S200x128 .f32 :=
  View.canon [⟨rOut, k0_pay2 (View.ld feat rFeat) (View.ld wt rWeight) (View.ld bias rBias) (View.ld adj rAdj)⟩]

/-- The lower output block: the same expression over the lower row block. -/
def outLower (feat : Vec F S10000x128 .f32) (wt : Vec F S128x128 .f32) (bias : Vec F S1x128 .f32) (adj : Vec F S200x10000 .f32) :
    Vec F S200x128 .f32 :=
  View.canon [⟨rOut, k0_pay3 (View.ld feat rFeat) (View.ld wt rWeight) (View.ld bias rBias) (View.ld adj rAdj)⟩]

/-- One store of the whole block covers the block. -/
theorem cover_out (p0 : Vec F S200x128 .f32) (y : S200x128.Idx) :
    ∃ pc ∈ ([⟨rOut, p0⟩] : List (View.Piece (Elt F) S200x128 .f32)), y ∈ pc.1.set :=
  View.cover_of_tiled [⟨rOut, p0⟩] S200x128.size (by rfl) y

/-! ## The step's triple -/

set_option maxHeartbeats 1000000 in
/-- From the five input buffers at given contents and the two output buffers at anything, the step runs to the end,
    leaves the inputs as they were and the outputs at `outUpper` and `outLower` of the inputs. -/
theorem sound_kernel (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S200x10000 .f32) (harg4 : arg4.IsWhole)
    (arg5 : Memref sig .tc .vmem S200x10000 .f32) (harg5 : arg5.IsWhole) (arg6 : Memref sig .tc .vmem S200x128 .f32) (harg6 : arg6.IsWhole)
    (arg7 : Memref sig .tc .vmem S200x128 .f32) (harg7 : arg7.IsWhole)
    (feat : Vec F S10000x128 .f32) (wt : Vec F S128x128 .f32) (bias : Vec F S1x128 .f32)
    (adjU adjL : Vec F S200x10000 .f32) (K : PUnit → sProp 𝕄) :
    iprop(owns (c : Thread nD τ) arg1 fullShare feat ∗ owns (c : Thread nD τ) arg2 fullShare wt ∗ owns (c : Thread nD τ) arg3 fullShare bias
        ∗ owns (c : Thread nD τ) arg4 fullShare adjU ∗ owns (c : Thread nD τ) arg5 fullShare adjL
        ∗ (∃ d, owns (c : Thread nD τ) arg6 fullShare d) ∗ (∃ d, owns (c : Thread nD τ) arg7 fullShare d)
        ∗ (iprop(owns (c : Thread nD τ) arg1 fullShare feat ∗ owns (c : Thread nD τ) arg2 fullShare wt ∗ owns (c : Thread nD τ) arg3 fullShare bias
            ∗ owns (c : Thread nD τ) arg4 fullShare adjU ∗ owns (c : Thread nD τ) arg5 fullShare adjL
            ∗ owns (c : Thread nD τ) arg6 fullShare (outUpper feat wt bias adjU)
            ∗ owns (c : Thread nD τ) arg7 fullShare (outLower feat wt bias adjL)) -∗ K ⟨⟩))
      ⊢ wp frame (wpE (defs₀ (F := F)) Variants.none c none) E
          (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_out _)
  · iexists _; isplitr
    swap; · iexact H7
    ipureintro
    exact View.read_writes_eq_canon _ _ _ (cover_out _)

end Cert.KernelIdeal.Hand

end
-- ==== Proof.DataIdeal.lean ====
/-
  What each staging buffer holds from grid step to grid step, and the step's triple read as the pipeline's obligation.

  The five input windows are only read: whenever the step runs, each holds the block of its array that the step's
  grid position names. The two output windows are stored whole at every step. The adjacency matrix is handed to the
  pipeline through two windows (its upper and its lower row blocks); each window holds half of the array's share.
-/
import proofs.«110271_g65781719105877_cont_9to1c4b_269_13_alg».proof.Proof.StepIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The device's buffers when the region is entered: the launch contents after the one host operation before the
    region (the bias vector reshaped to a row). -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- Window `w`'s block at step `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- After each step every input window holds its block and each output window the step's value of the input blocks;
    nothing else is kept between steps; the two windows on the adjacency matrix hold half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outUpper (iblk m c 0 t) (iblk m c 1 t) (iblk m c 2 t) (iblk m c 3 t)
    | ⟨6, _⟩ => outLower (iblk m c 0 t) (iblk m c 1 t) (iblk m c 2 t) (iblk m c 4 t)
  Φ _ := Pipeline.ΦA spec0 c
  q w := match w with
    | ⟨3, _⟩ => fullShare.left
    | ⟨4, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outUpper (iblk m c 0 t) (iblk m c 1 t) (iblk m c 2 t) (iblk m c 3 t) := by dsimp only [dats]
theorem after0_6 (c : Dev nD) (t : Fin cfg0.N) :
    (dats m 0 c).after 6 t = outLower (iblk m c 0 t) (iblk m c 1 t) (iblk m c 2 t) (iblk m c 4 t) := by dsimp only [dats]

/-! ## An input window holds its block at every step, fetched there or not -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## The step as the pipeline's obligation -/

/-- What the step is called with at `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## What the result array holds at the end -/

/-- Two half-height arrays, one above the other. -/
def stack (a b : (⟨S5000x128, .f32⟩ : BufTy).Contents (Elt F)) : (⟨S10000x128, .f32⟩ : BufTy).Contents (Elt F) :=
  concatenate S10000x128 0 [⟨S5000x128, a⟩, ⟨S5000x128, b⟩] concatenates_S5000x128_S5000x128_S10000x128_d0

/-- The two output arrays, as the last grid step leaves them, stacked. -/
def result (c : Dev nD) : Buf (Elt F) ((c : Thread nD τ).loc main_v2) :=
  stack ((dats m 0 c).arrAt 5 cfg0.N) ((dats m 0 c).arrAt 6 cfg0.N)

end Cert.KernelIdeal.Hand

end
-- ==== Proof.LaunchIdeal.lean ====
/-
  The run of the whole program: the bias vector reshaped to a row, the fused region over its 25 grid steps, the two
  output arrays put one above the other.
-/
import proofs.«110271_g65781719105877_cont_9to1c4b_269_13_alg».proof.Proof.DataIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg2) ↦{fullShare} W main_arg2)
          ∗ (((c : Thread nD τ).loc main_v0) ↦{fullShare} W main_v0) ∗ (((c : Thread nD τ).loc main_arg0) ↦{fullShare} W main_arg0)
          ∗ (((c : Thread nD τ).loc main_v1_0) ↦{fullShare} W main_v1_0) ∗ (((c : Thread nD τ).loc main_v1_1) ↦{fullShare} W main_v1_1)) := by
  unfold Pipeline.arrBufs
  exact bigSep_eq_bigSepL_of_eq [main_arg1, main_arg2, main_v0, main_arg0, main_v1_0, main_v1_1] (by decide) (by decide) _

theorem share0 (c : Dev nD) : (dats m 0 c).share 0 = fullShare := rfl
theorem set0 : (cfg0.win 0).arr.view.set = Finset.univ := (arr_whole0 0).set_eq_univ
theorem pt0 (c : Dev nD) (q : PosShare TreeShare) (g : Buf (Elt F) ((cfg0.win 0).arr.view.loc (c.tc : Thread nD τ))) :
    (((cfg0.win 0).arr.view.loc (c.tc : Thread nD τ)) ↦[(cfg0.win 0).arr.view.set]{q} g : sProp 𝕄)
      = (((c : Thread nD τ).loc main_arg1) ↦{q} g) := by
  rw [set0]
theorem share1 (c : Dev nD) : (dats m 0 c).share 1 = fullShare := rfl
theorem set1 : (cfg0.win 1).arr.view.set = Finset.univ := (arr_whole0 1).set_eq_univ
theorem pt1 (c : Dev nD) (q : PosShare TreeShare) (g : Buf (Elt F) ((cfg0.win 1).arr.view.loc (c.tc : Thread nD τ))) :
    (((cfg0.win 1).arr.view.loc (c.tc : Thread nD τ)) ↦[(cfg0.win 1).arr.view.set]{q} g : sProp 𝕄)
      = (((c : Thread nD τ).loc main_arg2) ↦{q} g) := by
  rw [set1]
theorem share2 (c : Dev nD) : (dats m 0 c).share 2 = fullShare := rfl
theorem set2 : (cfg0.win 2).arr.view.set = Finset.univ := (arr_whole0 2).set_eq_univ
theorem pt2 (c : Dev nD) (q : PosShare TreeShare) (g : Buf (Elt F) ((cfg0.win 2).arr.view.loc (c.tc : Thread nD τ))) :
    (((cfg0.win 2).arr.view.loc (c.tc : Thread nD τ)) ↦[(cfg0.win 2).arr.view.set]{q} g : sProp 𝕄)
      = (((c : Thread nD τ).loc main_v0) ↦{q} g) := by
  rw [set2]
theorem share3 (c : Dev nD) : (dats m 0 c).share 3 = fullShare.left := rfl
theorem set3 : (cfg0.win 3).arr.view.set = Finset.univ := (arr_whole0 3).set_eq_univ
theorem pt3 (c : Dev nD) (q : PosShare TreeShare) (g : Buf (Elt F) ((cfg0.win 3).arr.view.loc (c.tc : Thread nD τ))) :
    (((cfg0.win 3).arr.view.loc (c.tc : Thread nD τ)) ↦[(cfg0.win 3).arr.view.set]{q} g : sProp 𝕄)
      = (((c : Thread nD τ).loc main_arg0) ↦{q} g) := by
  rw [set3]
theorem share4 (c : Dev nD) : (dats m 0 c).share 4 = fullShare.right := rfl
theorem set4 : (cfg0.win 4).arr.view.set = Finset.univ := (arr_whole0 4).set_eq_univ
theorem pt4 (c : Dev nD) (q : PosShare TreeShare) (g : Buf (Elt F) ((cfg0.win 4).arr.view.loc (c.tc : Thread nD τ))) :
    (((cfg0.win 4).arr.view.loc (c.tc : Thread nD τ)) ↦[(cfg0.win 4).arr.view.set]{q} g : sProp 𝕄)
      = (((c : Thread nD τ).loc main_arg0) ↦{q} g) := by
  rw [set4]
theorem share5 (c : Dev nD) : (dats m 0 c).share 5 = fullShare := rfl
theorem set5 : (cfg0.win 5).arr.view.set = Finset.univ := (arr_whole0 5).set_eq_univ
theorem pt5 (c : Dev nD) (q : PosShare TreeShare) (g : Buf (Elt F) ((cfg0.win 5).arr.view.loc (c.tc : Thread nD τ))) :
    (((cfg0.win 5).arr.view.loc (c.tc : Thread nD τ)) ↦[(cfg0.win 5).arr.view.set]{q} g : sProp 𝕄)
      = (((c : Thread nD τ).loc main_v1_0) ↦{q} g) := by
  rw [set5]
theorem share6 (c : Dev nD) : (dats m 0 c).share 6 = fullShare := rfl
theorem set6 : (cfg0.win 6).arr.view.set = Finset.univ := (arr_whole0 6).set_eq_univ
theorem pt6 (c : Dev nD) (q : PosShare TreeShare) (g : Buf (Elt F) ((cfg0.win 6).arr.view.loc (c.tc : Thread nD τ))) :
    (((cfg0.win 6).arr.view.loc (c.tc : Thread nD τ)) ↦[(cfg0.win 6).arr.view.set]{q} g : sProp 𝕄)
      = (((c : Thread nD τ).loc main_v1_1) ↦{q} g) := by
  rw [set6]

theorem arrays_eq (c : Dev nD) (G : (w : Fin cfg0.W) → Buf (Elt F) ((cfg0.win w).arr.view.loc (c.tc : Thread nD τ))) :
    ((dats m 0 c).arrays G : sProp 𝕄)
      = iprop((((c : Thread nD τ).loc main_arg1) ↦{fullShare} G 0) ∗ (((c : Thread nD τ).loc main_arg2) ↦{fullShare} G 1)
          ∗ (((c : Thread nD τ).loc main_v0) ↦{fullShare} G 2) ∗ (((c : Thread nD τ).loc main_arg0) ↦{fullShare.left} G 3)
          ∗ (((c : Thread nD τ).loc main_arg0) ↦{fullShare.right} G 4)
          ∗ (((c : Thread nD τ).loc main_v1_0) ↦{fullShare} G 5) ∗ (((c : Thread nD τ).loc main_v1_1) ↦{fullShare} G 6)) := by
  unfold Dat.arrays
  rw [bigSep_W0, pt0, pt1, pt2, pt3, pt4, pt5, pt6, share0, share1, share2, share3, share4, share5, share6]

/-- The buffers behind the seven windows' arrays, whole, make the pipeline's arrays at entry: the adjacency matrix's
    buffer is split in two halves of its share, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨H1, H2, H3, H0, H5, H6⟩
  ihave H0 := (pointsTo_share (PosShare.mem_left_op_right fullShare)).1 $$ H0
  icases H0 with ⟨H0l, H0r⟩
  isplitl [H1]; · iexact H1
  isplitl [H2]; · iexact H2
  isplitl [H3]; · iexact H3
  isplitl [H0l]; · iexact H0l
  isplitl [H0r]; · iexact H0r
  isplitl [H5]; · iexact H5
  iexact H6

/-! ## The one host operation after the region -/

/-- The device's buffers at the region's exit: the windows' arrays at the contents `A`, everything else as the region
    found it. Read at the array of a window that shares its array with no other window it is that window's `A`. -/
theorem exit_at (c : Dev nD) (W : Valuation τ sig (Elt F)) (A : (w : Fin 7) → Buf (Elt F) ((spec0 w).arr.view.loc (c.tc : Thread nD τ)))
    (w : Fin 7) (hu : ∀ w', Pipeline.arrRef spec0 w' = Pipeline.arrRef spec0 w → w' = w) :
    Pipeline.withArrays spec0 c W A (Proc.devRef .tc (Pipeline.arrRef spec0 w)) = A w := by
  unfold Pipeline.withArrays
  have h : ∃ w', Proc.devRef .tc (Pipeline.arrRef spec0 w') = Proc.devRef (τ := τ) .tc (Pipeline.arrRef spec0 w) := ⟨w, rfl⟩
  rw [dif_pos h]
  suffices ∀ (w' : Fin 7) (e : Proc.devRef .tc (Pipeline.arrRef spec0 w') = Proc.devRef (τ := τ) .tc (Pipeline.arrRef spec0 w)),
      cast (congrArg (fun b' : DevRef τ sig => b'.ty.Contents (Elt F)) e) (A w') = A w from this _ h.choose_spec
  intro w' e
  obtain rfl : w' = w := hu w' (Proc.devRef_injective _ e)
  rfl

theorem exit_upper (c : Dev nD) (W : Valuation τ sig (Elt F)) (A : (w : Fin 7) → Buf (Elt F) ((spec0 w).arr.view.loc (c.tc : Thread nD τ))) :
    Pipeline.withArrays spec0 c W A (Proc.devRef .tc main_v1_0) = A 5 := exit_at c W A 5 (by decide)
theorem exit_lower (c : Dev nD) (W : Valuation τ sig (Elt F)) (A : (w : Fin 7) → Buf (Elt F) ((spec0 w).arr.view.loc (c.tc : Thread nD τ))) :
    Pipeline.withArrays spec0 c W A (Proc.devRef .tc main_v1_1) = A 6 := exit_at c W A 6 (by decide)
theorem exit_result (c : Dev nD) (W : Valuation τ sig (Elt F)) (A : (w : Fin 7) → Buf (Elt F) ((spec0 w).arr.view.loc (c.tc : Thread nD τ))) :
    Pipeline.withArrays spec0 c W A (Proc.devRef .tc main_v2) = W (Proc.devRef .tc main_v2) :=
  Pipeline.withArrays_of_ne spec0 c W A main_v2 (by decide)

/-- The three buffers the concatenation touches. -/
abbrev tailSet : Finset (DevRef τ sig) := {Proc.devRef .tc main_v1_0, Proc.devRef .tc main_v1_1, Proc.devRef .tc main_v2}

theorem held_tailSet (c : Dev nD) (W : Valuation τ sig (Elt F)) :
    (StableHlo.held (c.tc : Thread nD τ) tailSet W : sProp 𝕄)
      = iprop((((c : Thread nD τ).loc main_v1_0) ↦{fullShare} W (Proc.devRef .tc main_v1_0))
          ∗ (((c : Thread nD τ).loc main_v1_1) ↦{fullShare} W (Proc.devRef .tc main_v1_1))
          ∗ (((c : Thread nD τ).loc main_v2) ↦{fullShare} W (Proc.devRef .tc main_v2))) := by
  unfold StableHlo.held tailSet
  rw [bigSep_insert (by decide), bigSep_insert (by decide), bigSep_singleton]
  rfl

set_option backward.isDefEq.respectTransparency.types false in
/-- From the region's exit, with the windows' arrays at any contents `G`, the concatenation runs within the two output
    arrays and the result array and leaves the result array at the two output arrays stacked; everything else is
    handed back untouched. -/
theorem tail_run (𝒱₀ : Variants) (c : Dev nD) (G : (w : Fin cfg0.W) → Buf (Elt F) ((cfg0.win w).arr.view.loc (c.tc : Thread nD τ)))
    (Q' : PUnit → sProp 𝕄) :
    iprop((iprop((dats m 0 c).arrays G
              ∗ ((((c : Thread nD τ).loc main_arg3) ↦{fullShare} V m c main_arg3) ∗ (((c : Thread nD τ).loc main_v2) ↦{fullShare} stack (G 5) (G 6)))) -∗ Q' ⟨⟩)
        ∗ boundary (c.tc : Thread nD τ) ∗ (dats m 0 c).arrays G
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift 𝒱₀) (c.tc : Thread nD τ) none) Set.univ
          (Pipeline.chain [StableHlo.seq hostOps1]) Q' := by
  rw [unscopedRest0_eq, arrays_eq,
    show (Pipeline.chain [StableHlo.seq hostOps1] : Prog (TpuEff nD τ sig (Elt F) (Pipeline.Sig Λ₀ (Fin 1) fun p => ((cfgs p).toPCfg (Val := Elt F)).Adm) .tc) PUnit)
      = Pipeline.chain (([hostOps1] : List (List (HloOp τ sig (Elt F)))).map StableHlo.seq ++ []) from rfl]
  iintro ⟨Hk, Hb, ⟨H1, H2, H3, H0l, H0r, H5, H6⟩, ⟨Ha3, Hv2⟩⟩
  have hW : (StableHlo.held (c.tc : Thread nD τ) tailSet (Pipeline.withArrays spec0 c (V0 m c) G) : sProp 𝕄)
      = iprop((((c : Thread nD τ).loc main_v1_0) ↦{fullShare} G 5) ∗ (((c : Thread nD τ).loc main_v1_1) ↦{fullShare} G 6)
          ∗ (((c : Thread nD τ).loc main_v2) ↦{fullShare} V m c main_v2)) := by
    rw [held_tailSet, exit_upper, exit_lower, exit_result]
  have hW' : (StableHlo.held (c.tc : Thread nD τ) tailSet (StableHlo.after ([hostOps1] : List (List (HloOp τ sig (Elt F)))).flatten (Pipeline.withArrays spec0 c (V0 m c) G)) : sProp 𝕄)
      = iprop((((c : Thread nD τ).loc main_v1_0) ↦{fullShare} G 5) ∗ (((c : Thread nD τ).loc main_v1_1) ↦{fullShare} G 6)
          ∗ (((c : Thread nD τ).loc main_v2) ↦{fullShare} stack (G 5) (G 6))) := by
    rw [held_tailSet]
    have e5 : StableHlo.after ([hostOps1] : List (List (HloOp τ sig (Elt F)))).flatten (Pipeline.withArrays spec0 c (V0 m c) G) (Proc.devRef .tc main_v1_0) = G 5 := by
      simp only [hostOps1, List.flatten_cons, List.flatten_nil, List.append_nil]
      after_results
      exact exit_upper c _ G
    have e6 : StableHlo.after ([hostOps1] : List (List (HloOp τ sig (Elt F)))).flatten (Pipeline.withArrays spec0 c (V0 m c) G) (Proc.devRef .tc main_v1_1) = G 6 := by
      simp only [hostOps1, List.flatten_cons, List.flatten_nil, List.append_nil]
      after_results
      exact exit_lower c _ G
    have e2 : StableHlo.after ([hostOps1] : List (List (HloOp τ sig (Elt F)))).flatten (Pipeline.withArrays spec0 c (V0 m c) G) (Proc.devRef .tc main_v2) = stack (G 5) (G 6) := by
      simp only [hostOps1, List.flatten_cons, List.flatten_nil, List.append_nil]
      after_results
      rw [exit_upper, exit_lower]
      rfl
    rw [e5, e6, e2]
  have hsub : ∀ ops ∈ ([hostOps1] : List (List (HloOp τ sig (Elt F)))), ∀ op ∈ ops, op.bufs ⊆ tailSet := by
    intro ops hops op hop
    simp only [List.mem_cons, List.mem_nil_iff, or_false] at hops
    rcases hops with rfl
    simp only [hostOps1, List.mem_cons, List.mem_nil_iff, or_false] at hop
    rcases hop with rfl
    rw [StableHlo.binary_bufs]
  have hfresh : ∀ ops ∈ ([hostOps1] : List (List (HloOp τ sig (Elt F)))), ∀ op ∈ ops, op.fresh = ∅ := by
    intro ops hops op hop
    simp only [List.mem_cons, List.mem_nil_iff, or_false] at hops
    rcases hops with rfl
    exact (List.forall_iff_forall_mem.mp hostOps1_fresh) op hop
  iapply (Pipeline.wp_seqs_then (fun q => (cfgs q).toPCfg (Val := Elt F)) defs₀ 𝒱₀ c tailSet [] [hostOps1] hsub hfresh
    (Pipeline.withArrays spec0 c (V0 m c) G)) $$ [Hb H5 H6 Hv2]
  · rw [hW]
    isplitl [Hb]; · iexact Hb
    isplitl [H5]; · iexact H5
    isplitl [H6]; · iexact H6
    iexact Hv2
  iintro Hb
  rw [Pipeline.chain_nil, wp_pure, hW']
  imodintro
  iapply Hk
  icases Hb with ⟨-, H5, H6, Hv2⟩
  isplitr [Ha3 Hv2]
  · isplitl [H1]; · iexact H1
    isplitl [H2]; · iexact H2
    isplitl [H3]; · iexact H3
    isplitl [H0l]; · iexact H0l
    isplitl [H0r]; · iexact H0r
    isplitl [H5]; · iexact H5
    iexact H6
  · isplitl [Ha3]; · iexact Ha3
    iexact Hv2

/-! ## The run -/

set_option backward.isDefEq.respectTransparency.types false in
/-- From any memory with zero counters every weakly fair execution of the program ends, with every window's array at
    what the grid steps' write-backs make of it, the bias vector as the region found it, and the result array at
    the two output arrays stacked. -/
theorem run_main : θ_run defs (onTc (τ := τ) (main (F := F))) (s₀ m ρ) (fun r => ∀ c : Dev nD,
      (∀ w, r.2.mem ((spec0 w).arr.view.loc (c.tc : Thread nD τ)) = (dats m 0 c).arrAt w cfg0.N)
      ∧ r.2.mem ((c.tc : Thread nD τ).loc main_arg3) = V m c main_arg3
      ∧ r.2.mem ((c.tc : Thread nD τ).loc main_v2) = result m c) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop((((c : Thread nD τ).loc main_arg3) ↦{fullShare} V m c main_arg3) ∗ (((c : Thread nD τ).loc main_v2) ↦{fullShare} result m c)))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := fun c Q' => by
      rw [Pipeline.unscopedRestP_none]
      exact tail_run m Variants.none c _ Q')
    (QY := fun c s => s.mem ((c.tc : Thread nD τ).loc main_arg3) = V m c main_arg3 ∧ s.mem ((c.tc : Thread nD τ).loc main_v2) = result m c)
    (hY := fun c s' => by
      iintro ⟨-, ⟨H3, H2⟩, HSI⟩
      icombine HSI H3 gives %h3
      icombine HSI H2 gives %h2
      imodintro
      isplitr [HSI]
      · ipureintro
        exact ⟨funext fun i => h3 i (Finset.mem_univ i), funext fun i => h2 i (Finset.mem_univ i)⟩
      iexact HSI)
    (hQ := fun s h c => ⟨(h c).1, (h c).2.2.1, (h c).2.2.2⟩)

/-! ## The argument arrays end as they were launched -/

/-- The host operation before the region writes only the bias row, so the region finds each argument array as launched. -/
theorem V_adj (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_feat (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_weight (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_biasvec (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The run, with what it says of the result array and of the four argument arrays: an array the pipeline only
    reads ends at its entry contents, and those are the launch contents. -/
theorem run_result : θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).2.2,
     ((h c).1 3).trans (((dats m 0 c).arrAt_in 3 rfl _).trans ((A_eq m c 3).trans (V_adj m c))),
     ((h c).1 0).trans (((dats m 0 c).arrAt_in 0 rfl _).trans ((A_eq m c 0).trans (V_feat m c))),
     ((h c).1 1).trans (((dats m 0 c).arrAt_in 1 rfl _).trans ((A_eq m c 1).trans (V_weight m c))),
     (h c).2.1.trans (V_biasvec m c)⟩) (run_main m ρ)

/-- The frame: the program runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_result m ρ)

end Cert.KernelIdeal.Hand

end
-- ==== Proof.EntryIdeal.lean ====
/-
  The arrays as the region finds them, and each window's block read at an entry.

  The one host operation before the region only reshapes the bias vector to a row, so the region finds the four
  argument arrays as they were launched and the bias row holding the bias vector. The three small windows hold their
  whole arrays at every step; at step t the window on the upper half of the adjacency matrix holds rows
  200 t … 200 t + 199 and the window on the lower half rows 200 (t + 25) … 200 (t + 25) + 199.
-/
import proofs.«110271_g65781719105877_cont_9to1c4b_269_13_alg».proof.Proof.DataIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The grid has 25 steps, so step t's rows lie inside the upper half, -/
def rowUpper (t : Fin cfg0.N) (p : Fin 200) : Fin 10000 :=
  ⟨t.val * 200 + p.val, by have h : t.val < 25 := lt_of_lt_of_eq t.isLt N_0; omega⟩
/-- and the rows of step t + 25 inside the lower half. -/
def rowLower (t : Fin cfg0.N) (p : Fin 200) : Fin 10000 :=
  ⟨(t.val + 25) * 200 + p.val, by have h : t.val < 25 := lt_of_lt_of_eq t.isLt N_0; omega⟩

/-- The index maps of the three small windows are constantly zero. -/
theorem idx_small : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The upper window's block row is the step's number, the lower window's the step's number plus 25; both start at column 0. -/
theorem idx_adj : ∀ t : Fin cfg0.N, win0_3.index t (0 : Fin 2) = t.val ∧ win0_3.index t (1 : Fin 2) = 0
    ∧ win0_4.index t (0 : Fin 2) = t.val + 25 ∧ win0_4.index t (1 : Fin 2) = 0 :=
  (by decide +kernel : ∀ t : Fin grid0.N, _)

/-- The bias row the region finds is the bias vector. -/
theorem V_biasrow_apply (c : Dev nD) (q : Fin 128) :
    (V m c main_v0 : S1x128.Idx → Elt F .f32) (ix2 0 q) = (m ((c : Thread nD τ).loc main_arg3) : S128.Idx → Elt F .f32) (ix1 q) := by
  have e : (V m c main_v0 : S1x128.Idx → Elt F .f32)
      = shapeCast S1x128 (m ((c : Thread nD τ).loc main_arg3) : S128.Idx → Elt F .f32) shapeCasts_S128_S1x128 := by
    show StableHlo.after hostOps0 (fun b => m (c, b)) (Proc.devRef .tc main_v0) = _
    after_results
    rfl
  rw [e]
  exact shapeCast_a_1a_apply _ _ 0 q

theorem iblk_feat (c : Dev nD) (t : Fin cfg0.N) :
    (iblk m c 0 t : S10000x128.Idx → Elt F .f32) = (V m c main_arg1 : S10000x128.Idx → Elt F .f32) := by
  obtain ⟨e0, e1, -⟩ := idx_small t
  unfold iblk
  funext y
  rw [View.read_apply]
  show V m c main_arg1 _ = V m c main_arg1 y
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega
theorem iblk_weight (c : Dev nD) (t : Fin cfg0.N) :
    (iblk m c 1 t : S128x128.Idx → Elt F .f32) = (V m c main_arg2 : S128x128.Idx → Elt F .f32) := by
  obtain ⟨-, -, e0, e1, -⟩ := idx_small t
  unfold iblk
  funext y
  rw [View.read_apply]
  show V m c main_arg2 _ = V m c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega
theorem iblk_biasrow (c : Dev nD) (t : Fin cfg0.N) :
    (iblk m c 2 t : S1x128.Idx → Elt F .f32) = (V m c main_v0 : S1x128.Idx → Elt F .f32) := by
  obtain ⟨-, -, -, -, e0, e1⟩ := idx_small t
  unfold iblk
  funext y
  rw [View.read_apply]
  show V m c main_v0 _ = V m c main_v0 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega
theorem iblk_adjUpper_apply (c : Dev nD) (t : Fin cfg0.N) (p : Fin 200) (k : Fin 10000) :
    (iblk m c 3 t : S200x10000.Idx → Elt F .f32) (ix2 p k)
      = (V m c main_arg0 : S10000x10000.Idx → Elt F .f32) (ix2 (rowUpper t p) k) := by
  obtain ⟨e0, e1, -⟩ := idx_adj t
  unfold iblk
  rw [View.read_apply]
  show V m c main_arg0 _ = V m c main_arg0 (ix2 (rowUpper t p) k)
  congr 1
  funext a
  apply Fin.ext
  match a with
  | ⟨0, _⟩ => show win0_3.index t (0 : Fin 2) * 200 + 1 * p.val = t.val * 200 + p.val; rw [e0]; omega
  | ⟨1, _⟩ => show win0_3.index t (1 : Fin 2) * 10000 + 1 * k.val = k.val; rw [e1]; omega
theorem iblk_adjLower_apply (c : Dev nD) (t : Fin cfg0.N) (p : Fin 200) (k : Fin 10000) :
    (iblk m c 4 t : S200x10000.Idx → Elt F .f32) (ix2 p k)
      = (V m c main_arg0 : S10000x10000.Idx → Elt F .f32) (ix2 (rowLower t p) k) := by
  obtain ⟨-, -, e0, e1⟩ := idx_adj t
  unfold iblk
  rw [View.read_apply]
  show V m c main_arg0 _ = V m c main_arg0 (ix2 (rowLower t p) k)
  congr 1
  funext a
  apply Fin.ext
  match a with
  | ⟨0, _⟩ => show win0_4.index t (0 : Fin 2) * 200 + 1 * p.val = (t.val + 25) * 200 + p.val; rw [e0]; omega
  | ⟨1, _⟩ => show win0_4.index t (1 : Fin 2) * 10000 + 1 * k.val = k.val; rw [e1]; omega

end Cert.KernelIdeal.Hand

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.StepValueIdeal.lean ====
/-
  The value one grid step stores, entry by entry, at the ideal values: for a row block a of the adjacency matrix,
  entry (p, q) of the stored block is the logistic function of Σ_f (Σ_k a (p, k) · X (k, f)) · W (f, q) + b (0, q).
-/
import proofs.«110271_g65781719105877_cont_9to1c4b_269_13_alg».proof.Proof.StepIdeal
import proofs.«110271_g65781719105877_cont_9to1c4b_269_13_alg».proof.Proof.LibDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The zero offsets of a whole-buffer rectangle, as the constant function. -/
theorem hz : (![0, 0] : Fin 2 → Nat) = fun _ => 0 := funext fun a => by fin_cases a <;> rfl

/-- The first product's dimension record is the plain 200 × 10000 by 10000 × 128 product. -/
theorem dot1_eq : dot_S200x10000_S10000x128_S200x128_1_0_0_1_n_n = DotDims.plain 200 10000 128 := rfl

/-- The second product's dimension record is the plain 200 × 128 by 128 × 128 product. -/
theorem dot2_eq : dot_S200x128_S128x128_S200x128_1_0_0_1_n_n = DotDims.plain 200 128 128 := rfl

/-- The bias row, cast to its own shape and broadcast down the 200 rows, reads at (p, q) the bias at (0, q). -/
theorem bias_apply (bias : Vec Ideal S1x128 .f32) (p : Fin 200) (q : Fin 128) :
    broadcastTo S200x128 (k0_pay1 (F := Ideal) bias) broadcasts_S1x128_S200x128 (ix2 p q) = bias (ix2 0 q) := by
  show broadcastTo S200x128 (shapeCast S1x128 bias shapeCasts_S1x128_S1x128) broadcasts_S1x128_S200x128 (ix2 p q) = _
  rw [shapeCast_self]
  refine broadcastTo_apply bias broadcasts_S1x128_S200x128 (ix2 p q) (ix2 0 q) ?_
  intro a
  match a with
  | ⟨0, _⟩ => rfl
  | ⟨1, _⟩ => rfl

/-- The two products chained, read at (p, q): Σ_f (Σ_k a (p, k) · X (k, f)) · W (f, q). -/
theorem chain_apply (feat : Vec Ideal S10000x128 .f32) (wt : Vec Ideal S128x128 .f32) (adj : Vec Ideal S200x10000 .f32)
    (p : Fin 200) (q : Fin 128) :
    FloatOps.matmul (F := Ideal) (φ₁ := .f32) (φ₂ := .f32) dot_S200x128_S128x128_S200x128_1_0_0_1_n_n none
        (FloatOps.matmul (F := Ideal) (φ₁ := .f32) (φ₂ := .f32) dot_S200x10000_S10000x128_S200x128_1_0_0_1_n_n none adj feat
          (constant (F := Ideal) S200x128 .f32 0x00000000#32))
        wt (constant (F := Ideal) S200x128 .f32 0x00000000#32) (ix2 p q)
      = ∑ f : Fin 128, (∑ k : Fin 10000, adj (ix2 p k) * feat (ix2 k f)) * wt (ix2 f q) := by
  rw [dot1_eq, dot2_eq]
  rw [Cert.GNN.matmul_plain_zero_apply]
  refine Finset.sum_congr rfl (fun f _ => ?_)
  rw [Cert.GNN.matmul_plain_zero_apply]

/-- The first payload at entry (p, q). -/
theorem pay2_apply (feat : Vec Ideal S10000x128 .f32) (wt : Vec Ideal S128x128 .f32) (bias : Vec Ideal S1x128 .f32)
    (adj : Vec Ideal S200x10000 .f32) (p : Fin 200) (q : Fin 128) :
    k0_pay2 (F := Ideal) feat wt bias adj (ix2 p q)
      = Ideal.logistic ((∑ f : Fin 128, (∑ k : Fin 10000, adj (ix2 p k) * feat (ix2 k f)) * wt (ix2 f q)) + bias (ix2 0 q)) := by
  show Ideal.logistic
      (FloatOps.matmul (F := Ideal) dot_S200x128_S128x128_S200x128_1_0_0_1_n_n none
          (FloatOps.matmul (F := Ideal) dot_S200x10000_S10000x128_S200x128_1_0_0_1_n_n none adj feat (constant (F := Ideal) S200x128 .f32 0x00000000#32))
          wt (constant (F := Ideal) S200x128 .f32 0x00000000#32) (ix2 p q)
        + broadcastTo S200x128 (k0_pay1 (F := Ideal) bias) broadcasts_S1x128_S200x128 (ix2 p q)) = _
  rw [chain_apply, bias_apply]

/-- The second payload at entry (p, q): the same expression. -/
theorem pay3_apply (feat : Vec Ideal S10000x128 .f32) (wt : Vec Ideal S128x128 .f32) (bias : Vec Ideal S1x128 .f32)
    (adj : Vec Ideal S200x10000 .f32) (p : Fin 200) (q : Fin 128) :
    k0_pay3 (F := Ideal) feat wt bias adj (ix2 p q)
      = Ideal.logistic ((∑ f : Fin 128, (∑ k : Fin 10000, adj (ix2 p k) * feat (ix2 k f)) * wt (ix2 f q)) + bias (ix2 0 q)) := by
  show Ideal.logistic
      (FloatOps.matmul (F := Ideal) dot_S200x128_S128x128_S200x128_1_0_0_1_n_n none
          (FloatOps.matmul (F := Ideal) dot_S200x10000_S10000x128_S200x128_1_0_0_1_n_n none adj feat (constant (F := Ideal) S200x128 .f32 0x00000000#32))
          wt (constant (F := Ideal) S200x128 .f32 0x00000000#32) (ix2 p q)
        + broadcastTo S200x128 (k0_pay1 (F := Ideal) bias) broadcasts_S1x128_S200x128 (ix2 p q)) = _
  rw [chain_apply, bias_apply]

/-- The upper output block at entry (p, q). -/
theorem outUpper_apply (feat : Vec Ideal S10000x128 .f32) (wt : Vec Ideal S128x128 .f32) (bias : Vec Ideal S1x128 .f32)
    (adj : Vec Ideal S200x10000 .f32) (p : Fin 200) (q : Fin 128) :
    outUpper (F := Ideal) feat wt bias adj (ix2 p q)
      = Ideal.logistic ((∑ f : Fin 128, (∑ k : Fin 10000, adj (ix2 p k) * feat (ix2 k f)) * wt (ix2 f q)) + bias (ix2 0 q)) := by
  unfold outUpper
  rw [View.canon_unit_zero hz]
  simp only [View.ld_unit_zero (S := S10000x128) hz, View.ld_unit_zero (S := S128x128) hz, View.ld_unit_zero (S := S1x128) hz,
    View.ld_unit_zero (S := S200x10000) hz]
  exact pay2_apply feat wt bias adj p q

/-- The lower output block at entry (p, q): the same expression. -/
theorem outLower_apply (feat : Vec Ideal S10000x128 .f32) (wt : Vec Ideal S128x128 .f32) (bias : Vec Ideal S1x128 .f32)
    (adj : Vec Ideal S200x10000 .f32) (p : Fin 200) (q : Fin 128) :
    outLower (F := Ideal) feat wt bias adj (ix2 p q)
      = Ideal.logistic ((∑ f : Fin 128, (∑ k : Fin 10000, adj (ix2 p k) * feat (ix2 k f)) * wt (ix2 f q)) + bias (ix2 0 q)) := by
  unfold outLower
  rw [View.canon_unit_zero hz]
  simp only [View.ld_unit_zero (S := S10000x128) hz, View.ld_unit_zero (S := S128x128) hz, View.ld_unit_zero (S := S1x128) hz,
    View.ld_unit_zero (S := S200x10000) hz]
  exact pay3_apply feat wt bias adj p q

end Cert.KernelIdeal.Hand

end
-- ==== Proof.Layer.lean ====
/-
  The layer as a function of its four arrays, entry by entry, in two arrangements.

  With A the n × n adjacency matrix, X the n × f feature matrix, W the f × u weight matrix and b the bias vector
  (n = 10000, f = u = 128), the layer's entry (r, j) is the logistic function of a pre-activation. One arrangement
  multiplies rows of A into X first and then into W:        z (r, j) = Σ_f (Σ_k A (r, k) · X (k, f)) · W (f, j) + b j.
  The other multiplies X into W first and then rows of A in: z'(r, j) = Σ_k A (r, k) · (Σ_f X (k, f) · W (f, j)) + b j.
  On the extended reals a product does not distribute over a sum in general; where every entry of A, X and W is a
  real number both are the same finite double sum, so the two arrangements agree.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

abbrev SAdj : Shape := ⟨2, ![10000, 10000]⟩
abbrev SFeat : Shape := ⟨2, ![10000, 128]⟩
abbrev SWt : Shape := ⟨2, ![128, 128]⟩
abbrev SBias : Shape := ⟨1, ![128]⟩
abbrev SOut : Shape := ⟨2, ![10000, 128]⟩

/-- The pre-activation with the rows of the adjacency matrix multiplied into the features first. -/
def preRowsFirst (A : FVec Ideal SAdj .f32) (X : FVec Ideal SFeat .f32) (W : FVec Ideal SWt .f32) (b : FVec Ideal SBias .f32)
    (r : Fin 10000) (j : Fin 128) : EReal :=
  (∑ f : Fin 128, (∑ k : Fin 10000, A (ix2 r k) * X (ix2 k f)) * W (ix2 f j)) + b (ix1 j)

/-- The pre-activation with the features multiplied into the weights first. -/
def preWeightsFirst (A : FVec Ideal SAdj .f32) (X : FVec Ideal SFeat .f32) (W : FVec Ideal SWt .f32) (b : FVec Ideal SBias .f32)
    (r : Fin 10000) (j : Fin 128) : EReal :=
  (∑ k : Fin 10000, A (ix2 r k) * (∑ f : Fin 128, X (ix2 k f) * W (ix2 f j))) + b (ix1 j)

/-- The layer, rows first: the arrangement the fused kernel computes. -/
def layerRowsFirst (A : FVec Ideal SAdj .f32) (X : FVec Ideal SFeat .f32) (W : FVec Ideal SWt .f32) (b : FVec Ideal SBias .f32) :
    FVec Ideal SOut .f32 :=
  fun i => Ideal.logistic (preRowsFirst A X W b (i 0) (i 1))

/-- The layer, weights first: the arrangement the reference computes. -/
def layerWeightsFirst (A : FVec Ideal SAdj .f32) (X : FVec Ideal SFeat .f32) (W : FVec Ideal SWt .f32) (b : FVec Ideal SBias .f32) :
    FVec Ideal SOut .f32 :=
  fun i => Ideal.logistic (preWeightsFirst A X W b (i 0) (i 1))

/-- The coercion of a finite sum of real numbers is the sum of the coercions. -/
theorem coe_finset_sum {ι : Type} (s : Finset ι) (g : ι → ℝ) :
    ((∑ i ∈ s, g i : ℝ) : EReal) = ∑ i ∈ s, (g i : EReal) := by
  classical
  refine Finset.induction_on s (by simp) ?_
  intro a s ha ih
  rw [Finset.sum_insert ha, Finset.sum_insert ha, EReal.coe_add, ih]

/-- Over the reals the two pre-activations without bias are the same double sum: distribute each product over the
    inner sum, exchange the two sums, and reassociate the triple product. -/
theorem real_arrangements_agree (a : Fin 10000 → Fin 10000 → ℝ) (x : Fin 10000 → Fin 128 → ℝ) (w : Fin 128 → Fin 128 → ℝ)
    (r : Fin 10000) (j : Fin 128) :
    (∑ f : Fin 128, (∑ k : Fin 10000, a r k * x k f) * w f j) = ∑ k : Fin 10000, a r k * (∑ f : Fin 128, x k f * w f j) := by
  simp only [Finset.sum_mul, Finset.mul_sum]
  rw [Finset.sum_comm]
  refine Finset.sum_congr rfl (fun k _ => Finset.sum_congr rfl (fun f _ => ?_))
  exact mul_assoc _ _ _

/-- Where the three matrices hold real numbers the two pre-activations agree at every entry. -/
theorem pre_arrangements_agree (A : FVec Ideal SAdj .f32) (X : FVec Ideal SFeat .f32) (W : FVec Ideal SWt .f32) (b : FVec Ideal SBias .f32)
    (hA : ∀ i, ∃ x : ℝ, A i = (x : EReal)) (hX : ∀ i, ∃ x : ℝ, X i = (x : EReal)) (hW : ∀ i, ∃ x : ℝ, W i = (x : EReal))
    (r : Fin 10000) (j : Fin 128) :
    preRowsFirst A X W b r j = preWeightsFirst A X W b r j := by
  choose a ha using hA
  choose x hx using hX
  choose w hw using hW
  unfold preRowsFirst preWeightsFirst
  refine congrArg (· + b (ix1 j)) ?_
  simp only [ha, hx, hw, ← EReal.coe_mul, ← coe_finset_sum]
  exact congrArg _ (real_arrangements_agree (fun r k => a (ix2 r k)) (fun k f => x (ix2 k f)) (fun f j => w (ix2 f j)) r j)

/-- Where the three matrices hold real numbers the two arrangements are one function: both pre-activations are the
    double sum Σ_k Σ_f A (r, k) · X (k, f) · W (f, j), by distributing each product over the inner sum and exchanging
    the two sums. (The bias enters both the same way and need not be finite.) -/
theorem layer_arrangements_agree (A : FVec Ideal SAdj .f32) (X : FVec Ideal SFeat .f32) (W : FVec Ideal SWt .f32) (b : FVec Ideal SBias .f32)
    (hA : ∀ i, ∃ x : ℝ, A i = (x : EReal)) (hX : ∀ i, ∃ x : ℝ, X i = (x : EReal)) (hW : ∀ i, ∃ x : ℝ, W i = (x : EReal)) :
    layerRowsFirst A X W b = layerWeightsFirst A X W b := by
  funext i
  unfold layerRowsFirst layerWeightsFirst
  exact congrArg Ideal.logistic (pre_arrangements_agree A X W b hA hX hW (i 0) (i 1))

end Cert.Layer

end
-- ==== Proof.Halves.lean ====
/-
  The rows of a 10000-row array as an upper and a lower half of 5000 rows each.
-/

namespace Cert.Layer

/-- Row r of the upper half is row r of the whole. -/
def rowOfUpper (r : Fin 5000) : Fin 10000 := ⟨r.val, by omega⟩
/-- Row r of the lower half is row r + 5000 of the whole. -/
def rowOfLower (r : Fin 5000) : Fin 10000 := ⟨r.val + 5000, by omega⟩

end Cert.Layer
-- ==== Proof.ArrayValueIdeal.lean ====
/-
  From blocks to arrays: what the two output arrays hold after the last grid step.

  Step t writes rows 200 t … 200 t + 199 of each output array, and the 25 steps cover all 5000 rows. The upper output
  array ends holding rows 0 … 4999 of the layer (rows-first arrangement), the lower one rows 5000 … 9999.
-/
import proofs.«110271_g65781719105877_cont_9to1c4b_269_13_alg».proof.Proof.LaunchIdeal
import proofs.«110271_g65781719105877_cont_9to1c4b_269_13_alg».proof.Proof.EntryIdeal
import proofs.«110271_g65781719105877_cont_9to1c4b_269_13_alg».proof.Proof.StepValueIdeal
import proofs.«110271_g65781719105877_cont_9to1c4b_269_13_alg».proof.Proof.Layer
import proofs.«110271_g65781719105877_cont_9to1c4b_269_13_alg».proof.Proof.Halves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Layer (rowOfUpper rowOfLower)

variable (m : (ℓ : Loc nD τ sig) → Buf (Elt Ideal) ℓ)

/-- The layer of the launched arrays on device `c`, rows first. -/
abbrev layerOf (c : Dev nD) : FVec Ideal S10000x128 .f32 :=
  Cert.Layer.layerRowsFirst (m ((c : Thread nD τ).loc main_arg0)) (m ((c : Thread nD τ).loc main_arg1))
    (m ((c : Thread nD τ).loc main_arg2)) (m ((c : Thread nD τ).loc main_arg3))

/-- Each output window's block row is the step's number, and both start at column 0. -/
theorem idx_out : ∀ t : Fin cfg0.N, win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A stored entry is the layer's entry at row `r`, when the row block's row `p` is row `r` of the adjacency matrix,
    the feature and weight blocks are the whole matrices, and the bias row holds the bias vector. -/
theorem entry_eq_layer (A : FVec Ideal S10000x10000 .f32) (X : FVec Ideal S10000x128 .f32) (W : FVec Ideal S128x128 .f32)
    (b : FVec Ideal S128 .f32) (feat : Vec Ideal S10000x128 .f32) (wt : Vec Ideal S128x128 .f32)
    (bias : Vec Ideal S1x128 .f32) (adj : Vec Ideal S200x10000 .f32)
    (r : Fin 10000) (p : Fin 200) (q : Fin 128)
    (hfeat : feat = X) (hwt : wt = W)
    (hadj : ∀ k : Fin 10000, adj (ix2 p k) = A (ix2 r k)) (hbias : bias (ix2 0 q) = b (ix1 q)) :
    Ideal.logistic ((∑ f : Fin 128, (∑ k : Fin 10000, adj (ix2 p k) * feat (ix2 k f)) * wt (ix2 f q)) + bias (ix2 0 q))
      = Cert.Layer.layerRowsFirst A X W b (ix2 r q) := by
  subst hfeat hwt
  simp only [hadj, hbias]
  rfl

/-- Entry (p, q) of the block step t stores into the upper output array is the layer's entry at row 200 t + p. -/
theorem upper_point (c : Dev nD) (t : Fin cfg0.N) (p : Fin 200) (q : Fin 128) (i : S5000x128.Idx)
    (hi0 : (i 0).val = t.val * 200 + p.val) (hi1 : (i 1).val = q.val) :
    outUpper (F := Ideal) (iblk m c 0 t) (iblk m c 1 t) (iblk m c 2 t) (iblk m c 3 t) (ix2 p q)
      = layerOf m c (ix2 (rowOfUpper (i 0)) (i 1)) := by
  have hr : rowOfUpper (i 0) = rowUpper t p := Fin.ext hi0
  have hq : i 1 = q := Fin.ext hi1
  rw [outUpper_apply, hr, hq]
  refine entry_eq_layer _ _ _ _ _ _ _ _ (rowUpper t p) p q ?_ ?_ (fun k => ?_) ?_
  · rw [iblk_feat, V_feat]
  · rw [iblk_weight, V_weight]
  · rw [iblk_adjUpper_apply, V_adj]
  · rw [iblk_biasrow, V_biasrow_apply]

/-- What step t writes back into the upper output array is block t of the layer's upper rows. -/
theorem flushedUpper_eq (c : Dev nD) (t : Fin cfg0.N) :
    (dats m 0 c).flushed 5 t
      = ((cfg0.win 5).blk t).view.read (Elt Ideal)
          (fun i : S5000x128.Idx => layerOf m c (ix2 (rowOfUpper (i 0)) (i 1))) := by
  show (cfg0.win 5).cut (grid0.coords t) ((dats m 0 c).after 5 t) = _
  rw [after0_5]
  obtain ⟨e0, e1, -, -⟩ := idx_out t
  funext j
  rw [View.read_apply]
  have h0 : (j 0).val < 200 := (j 0).isLt
  have h1 : (j 1).val < 128 := (j 1).isLt
  have hx : ((cfg0.win 5).xinj (grid0.coords t) j : S200x128.Idx) = ix2 ⟨(j 0).val, h0⟩ ⟨(j 1).val, h1⟩ :=
    funext fun a => by match a with | ⟨0, _⟩ => rfl | ⟨1, _⟩ => rfl
  refine (congrArg (outUpper (F := Ideal) (iblk m c 0 t) (iblk m c 1 t) (iblk m c 2 t) (iblk m c 3 t)) hx).trans ?_
  refine upper_point m c t ⟨(j 0).val, h0⟩ ⟨(j 1).val, h1⟩ _ ?_ ?_
  · show win0_5.index t (0 : Fin 2) * 200 + 1 * (j 0).val = t.val * 200 + (j 0).val
    rw [e0]; omega
  · show win0_5.index t (1 : Fin 2) * 128 + 1 * (j 1).val = (j 1).val
    rw [e1]; omega

/-- An index of the upper output array is in step t's block iff each coordinate is in the block's range on its axis. -/
theorem mem_blkUpper (t : Fin cfg0.N) (i : S5000x128.Idx) :
    i ∈ ((cfg0.win 5).blk t).view.set ↔ ∀ a : Fin 2, win0_5.index t a * S200x128.size a ≤ (i a).val
      ∧ (i a).val < win0_5.index t a * S200x128.size a + S200x128.size a := by
  show i ∈ ((View.whole main_v1_0).slice (win0_5.rect t)).set ↔ _
  rw [View.set_slice_whole, Rect.mem_set_unit]
  exact Iff.rfl

/-- Every row of the upper output array is written: row r by step r / 200. -/
theorem coverUpper (i : S5000x128.Idx) :
    ∃ t : Fin cfg0.N, (cfg0.win 5).flush t = true ∧ i ∈ ((cfg0.win 5).blk t).view.set := by
  have hi0 : (i 0).val < 5000 := (i 0).isLt
  have hi1 : (i 1).val < 128 := (i 1).isLt
  have ht : (i 0).val / 200 < cfg0.N := lt_of_lt_of_eq (by omega) N_0.symm
  obtain ⟨e0, e1, -, -⟩ := idx_out ⟨(i 0).val / 200, ht⟩
  refine ⟨⟨(i 0).val / 200, ht⟩, flush0_5 _, ?_⟩
  rw [mem_blkUpper]
  intro a
  match a with
  | ⟨0, _⟩ =>
    show win0_5.index ⟨(i 0).val / 200, ht⟩ (0 : Fin 2) * 200 ≤ (i 0).val
      ∧ (i 0).val < win0_5.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_5.index ⟨(i 0).val / 200, ht⟩ (1 : Fin 2) * 128 ≤ (i 1).val
      ∧ (i 1).val < win0_5.index ⟨(i 0).val / 200, ht⟩ (1 : Fin 2) * 128 + 128
    rw [e1]; omega

/-- Entry (p, q) of the block step t stores into the lower output array is the layer's entry at row 5000 + 200 t + p. -/
theorem lower_point (c : Dev nD) (t : Fin cfg0.N) (p : Fin 200) (q : Fin 128) (i : S5000x128.Idx)
    (hi0 : (i 0).val = t.val * 200 + p.val) (hi1 : (i 1).val = q.val) :
    outLower (F := Ideal) (iblk m c 0 t) (iblk m c 1 t) (iblk m c 2 t) (iblk m c 4 t) (ix2 p q)
      = layerOf m c (ix2 (rowOfLower (i 0)) (i 1)) := by
  have hr : rowOfLower (i 0) = rowLower t p := Fin.ext (by show (i 0).val + 5000 = (t.val + 25) * 200 + p.val; omega)
  have hq : i 1 = q := Fin.ext hi1
  rw [outLower_apply, hr, hq]
  refine entry_eq_layer _ _ _ _ _ _ _ _ (rowLower t p) p q ?_ ?_ (fun k => ?_) ?_
  · rw [iblk_feat, V_feat]
  · rw [iblk_weight, V_weight]
  · rw [iblk_adjLower_apply, V_adj]
  · rw [iblk_biasrow, V_biasrow_apply]

/-- What step t writes back into the lower output array is block t of the layer's lower rows. -/
theorem flushedLower_eq (c : Dev nD) (t : Fin cfg0.N) :
    (dats m 0 c).flushed 6 t
      = ((cfg0.win 6).blk t).view.read (Elt Ideal)
          (fun i : S5000x128.Idx => layerOf m c (ix2 (rowOfLower (i 0)) (i 1))) := by
  show (cfg0.win 6).cut (grid0.coords t) ((dats m 0 c).after 6 t) = _
  rw [after0_6]
  obtain ⟨-, -, e0, e1⟩ := idx_out t
  funext j
  rw [View.read_apply]
  have h0 : (j 0).val < 200 := (j 0).isLt
  have h1 : (j 1).val < 128 := (j 1).isLt
  have hx : ((cfg0.win 6).xinj (grid0.coords t) j : S200x128.Idx) = ix2 ⟨(j 0).val, h0⟩ ⟨(j 1).val, h1⟩ :=
    funext fun a => by match a with | ⟨0, _⟩ => rfl | ⟨1, _⟩ => rfl
  refine (congrArg (outLower (F := Ideal) (iblk m c 0 t) (iblk m c 1 t) (iblk m c 2 t) (iblk m c 4 t)) hx).trans ?_
  refine lower_point m c t ⟨(j 0).val, h0⟩ ⟨(j 1).val, h1⟩ _ ?_ ?_
  · show win0_6.index t (0 : Fin 2) * 200 + 1 * (j 0).val = t.val * 200 + (j 0).val
    rw [e0]; omega
  · show win0_6.index t (1 : Fin 2) * 128 + 1 * (j 1).val = (j 1).val
    rw [e1]; omega

/-- An index of the lower output array is in step t's block iff each coordinate is in the block's range on its axis. -/
theorem mem_blkLower (t : Fin cfg0.N) (i : S5000x128.Idx) :
    i ∈ ((cfg0.win 6).blk t).view.set ↔ ∀ a : Fin 2, win0_6.index t a * S200x128.size a ≤ (i a).val
      ∧ (i a).val < win0_6.index t a * S200x128.size a + S200x128.size a := by
  show i ∈ ((View.whole main_v1_1).slice (win0_6.rect t)).set ↔ _
  rw [View.set_slice_whole, Rect.mem_set_unit]
  exact Iff.rfl

/-- Every row of the lower output array is written: row r by step r / 200. -/
theorem coverLower (i : S5000x128.Idx) :
    ∃ t : Fin cfg0.N, (cfg0.win 6).flush t = true ∧ i ∈ ((cfg0.win 6).blk t).view.set := by
  have hi0 : (i 0).val < 5000 := (i 0).isLt
  have hi1 : (i 1).val < 128 := (i 1).isLt
  have ht : (i 0).val / 200 < cfg0.N := lt_of_lt_of_eq (by omega) N_0.symm
  obtain ⟨-, -, e0, e1⟩ := idx_out ⟨(i 0).val / 200, ht⟩
  refine ⟨⟨(i 0).val / 200, ht⟩, flush0_6 _, ?_⟩
  rw [mem_blkLower]
  intro a
  match a with
  | ⟨0, _⟩ =>
    show win0_6.index ⟨(i 0).val / 200, ht⟩ (0 : Fin 2) * 200 ≤ (i 0).val
      ∧ (i 0).val < win0_6.index ⟨(i 0).val / 200, ht⟩ (0 : Fin 2) * 200 + 200
    rw [e0]; show (i 0).val / 200 * 200 ≤ (i 0).val ∧ (i 0).val < (i 0).val / 200 * 200 + 200; omega
  | ⟨1, _⟩ =>
    show win0_6.index ⟨(i 0).val / 200, ht⟩ (1 : Fin 2) * 128 ≤ (i 1).val
      ∧ (i 1).val < win0_6.index ⟨(i 0).val / 200, ht⟩ (1 : Fin 2) * 128 + 128
    rw [e1]; omega

/-- The upper output array after the last step. -/
theorem upper_final (c : Dev nD) :
    ((dats m 0 c).arrAt 5 cfg0.N : S5000x128.Idx → Elt Ideal .f32) = fun i => layerOf m c (ix2 (rowOfUpper (i 0)) (i 1)) :=
  (dats m 0 c).arrAt_eq_of_cover 5 _ (fun t _ => flushedUpper_eq m c t) coverUpper

/-- The lower output array after the last step. -/
theorem lower_final (c : Dev nD) :
    ((dats m 0 c).arrAt 6 cfg0.N : S5000x128.Idx → Elt Ideal .f32) = fun i => layerOf m c (ix2 (rowOfLower (i 0)) (i 1)) :=
  (dats m 0 c).arrAt_eq_of_cover 6 _ (fun t _ => flushedLower_eq m c t) coverLower

end Cert.KernelIdeal.Hand

end
-- ==== Proof.StackIdeal.lean ====
/-
  Two half-height arrays stacked: where the upper one holds rows 0 … 4999 of an array L and the lower one rows
  5000 … 9999, the stack is L.
-/
import proofs.«110271_g65781719105877_cont_9to1c4b_269_13_alg».proof.Proof.DataIdeal
import proofs.«110271_g65781719105877_cont_9to1c4b_269_13_alg».proof.Proof.Halves
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Layer (rowOfUpper rowOfLower)

variable {F : FTy → Type} [FloatOps F]

theorem stack_halves (a b : (⟨S5000x128, .f32⟩ : BufTy).Contents (Elt F)) (L : (⟨S10000x128, .f32⟩ : BufTy).Contents (Elt F))
    (ha : (a : S5000x128.Idx → Elt F .f32) = fun i => (L : S10000x128.Idx → Elt F .f32) (ix2 (rowOfUpper (i 0)) (i 1)))
    (hb : (b : S5000x128.Idx → Elt F .f32) = fun i => (L : S10000x128.Idx → Elt F .f32) (ix2 (rowOfLower (i 0)) (i 1))) :
    stack a b = L := by
  refine funext (fun (i : S10000x128.Idx) => ?_)
  obtain ⟨r, j, rfl⟩ : ∃ (r : Fin 10000) (j : Fin 128), i = ix2 r j := ⟨i 0, i 1, eq_ix2 i⟩
  unfold stack
  by_cases h : r.val < 5000
  · -- a row of the upper half: the first piece, at the same coordinates
    refine (concatenate_pair_apply_left (t := S10000x128) (s₁ := S5000x128) (s₂ := S5000x128) _ a b
      concatenates_S5000x128_S5000x128_S10000x128_d0 (ix2 r j) rfl (ix2 (⟨r.val, h⟩ : Fin 5000) j) ?_).trans ?_
    · intro c
      match c with
      | ⟨0, _⟩ => rfl
      | ⟨1, _⟩ => rfl
    · exact congrFun ha (ix2 (⟨r.val, h⟩ : Fin 5000) j)
  · -- a row of the lower half: the second piece, 5000 rows up
    obtain ⟨r', hr'⟩ : ∃ r' : Fin 5000, r'.val + 5000 = r.val :=
      ⟨⟨r.val - 5000, by have := r.isLt; omega⟩, by show r.val - 5000 + 5000 = r.val; omega⟩
    refine (concatenate_pair_apply_right (t := S10000x128) (s₁ := S5000x128) (s₂ := S5000x128) _ a b
      concatenates_S5000x128_S5000x128_S10000x128_d0 (ix2 r j) rfl rfl (ix2 r' j) ?_ ?_).trans ?_
    · intro c
      match c with
      | ⟨0, _⟩ => exact fun hne => absurd (Fin.ext rfl) hne
      | ⟨1, _⟩ => exact fun _ => rfl
    · show r'.val + 5000 = r.val
      exact hr'
    · refine (congrFun hb (ix2 r' j)).trans ?_
      show (L : S10000x128.Idx → Elt F .f32) (ix2 (rowOfLower r') j) = L (ix2 r j)
      have e : rowOfLower r' = r := Fin.ext hr'
      rw [e]

end Cert.KernelIdeal.Hand

end
-- ==== Proof.RefSide.lean ====
/-
  The reference at the ideal values: its result array is the layer with the features multiplied into the weights first.
-/
import proofs.«110271_g65781719105877_cont_9to1c4b_269_13_alg».proof.Proof.Gen.ReferenceIdeal.Run
import proofs.«110271_g65781719105877_cont_9to1c4b_269_13_alg».proof.Proof.Gen.ReferenceIdeal.Read
import proofs.«110271_g65781719105877_cont_9to1c4b_269_13_alg».proof.Proof.Layer
import proofs.«110271_g65781719105877_cont_9to1c4b_269_13_alg».proof.Proof.LibDot
import Idealize.ShloMosaic.Lib.IdealHost

noncomputable section

namespace Cert.ReferenceIdeal.RefValue

open Idealize.ShloMosaic Idealize.ShloMosaic.ValueIdx Cert.ReferenceIdeal Cert.ReferenceIdeal.Gen

/-- The index the outer product reads its left operand at: row `p` of the adjacency matrix, column `k`. -/
theorem lidx_v1_eq (p : Fin 10000) (q : Fin 128) (k : Fin 10000) :
    Cert.ReferenceIdeal.Read.lidx_main_v1 (ix2 p q) k = ix2 p k :=
  funext fun a => Fin.ext (by match a with | ⟨0, _⟩ => rfl | ⟨1, _⟩ => rfl)

/-- The index the outer product reads its right operand at: row `k` of the inner product, column `q`. -/
theorem ridx_v1_eq (p : Fin 10000) (q : Fin 128) (k : Fin 10000) :
    Cert.ReferenceIdeal.Read.ridx_main_v1 (ix2 p q) k = ix2 k q :=
  funext fun a => Fin.ext (by match a with | ⟨0, _⟩ => rfl | ⟨1, _⟩ => rfl)

/-- The index the inner product reads the features at: row `k`, column `f`. -/
theorem lidx_v0_eq (k : Fin 10000) (q : Fin 128) (f : Fin 128) :
    Cert.ReferenceIdeal.Read.lidx_main_v0 (ix2 k q) f = ix2 k f :=
  funext fun a => Fin.ext (by match a with | ⟨0, _⟩ => rfl | ⟨1, _⟩ => rfl)

/-- The index the inner product reads the weights at: row `f`, column `q`. -/
theorem ridx_v0_eq (k : Fin 10000) (q : Fin 128) (f : Fin 128) :
    Cert.ReferenceIdeal.Read.ridx_main_v0 (ix2 k q) f = ix2 f q :=
  funext fun a => Fin.ext (by match a with | ⟨0, _⟩ => rfl | ⟨1, _⟩ => rfl)

/-- The two broadcasts of the bias read it at the column `q`. -/
theorem idx_bias_eq (p : Fin 10000) (q : Fin 128) :
    Cert.ReferenceIdeal.Read.idx_main_v2 (Cert.ReferenceIdeal.Read.idx_main_v3 (ix2 p q)) = ix1 q :=
  funext fun a => Fin.ext (by match a with | ⟨0, _⟩ => rfl)

/-- The reference's last stage, as a function of the four arguments, is the layer in the weights-first arrangement. -/
theorem reference_is_layer (x0 : FVec Ideal S10000x10000 .f32) (x1 : FVec Ideal S10000x128 .f32) (x2 : FVec Ideal S128x128 .f32)
    (x3 : FVec Ideal S128 .f32) :
    Cert.ReferenceIdeal.Read.val_main_v10 (F := Ideal) x0 x1 x2 x3 = Cert.Layer.layerWeightsFirst x0 x1 x2 x3 := by
  funext i
  obtain ⟨p, q, rfl⟩ : ∃ (p : Fin 10000) (q : Fin 128), i = ix2 p q := ⟨i 0, i 1, eq_ix2 i⟩
  rw [Read.val_main_v10_apply, Read.val_main_v9_apply, Read.val_main_cst_0_apply, Read.val_main_v8_apply,
    Read.val_main_v7_apply, Read.val_main_cst_apply, Read.val_main_v6_apply, Read.val_main_v5_apply,
    Read.val_main_v4_apply, Read.val_main_v3_apply, Read.val_main_v2_apply, Read.val_main_v1_apply]
  simp only [Read.val_main_v0_apply, lidx_v1_eq, ridx_v1_eq, lidx_v0_eq, ridx_v0_eq, idx_bias_eq,
    Ideal.hostDivf_def, Ideal.addf_def, Ideal.hostUnary_exp_def, Ideal.hostNegf_def, Ideal.negf_def,
    Ideal.ofBits_def, Ideal.ofBits_one_f32]
  unfold Cert.Layer.layerWeightsFirst Cert.Layer.preWeightsFirst Ideal.logistic
  rfl

end Cert.ReferenceIdeal.RefValue

end
-- ==== Proof.FiniteInputs.lean ====
/-
  The precondition read entry by entry: where "every float input is finite" holds, every entry of the adjacency,
  feature and weight matrices is a real number (neither +inf nor -inf).
-/
import proofs.«110271_g65781719105877_cont_9to1c4b_269_13_alg».proof.Pre_finite_inputs
import Idealize.ShloMosaic.PureOps.Ideal
import Idealize.ShloMosaic.Lib.ReduceAll

noncomputable section

namespace Cert.Pre_finite_inputs.Decode

open Idealize.ShloMosaic Cert.Pre_finite_inputs

variable [Facts]

/-- The scalar shape has one index. -/
instance : Subsingleton S_.Idx := ⟨fun _ _ => funext fun d => d.elim0⟩

/-- An extended real whose absolute value is strictly below the pattern of +inf is a real number:
    at ⊥ and at ⊤ the absolute value max x (-x) is ⊤, which is not below ⊤. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  revert h
  induction (x : EReal) using EReal.rec with
  | bot => intro h; simp at h
  | coe r => intro _; exact ⟨r, rfl⟩
  | top => intro h; simp at h

/-- One conjunction over all entries of |a| < +inf, as the predicate prints it, read at an entry: the entry is a real number. -/
theorem real_of_all {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi
        (cmpf .olt (Host.absf a) (broadcastInDim s ![] hb (constant (F := Ideal) S_ .f32 0x7F800000#32)))
        (constantI S_ 1 1#1) hr hu j = 1#1) (i : s.Idx) : ∃ r : ℝ, a i = (r : EReal) :=
  real_of_abs_lt_inf (a i) (Host.reduce_andi_all _ _ hr hu j e i)

/-- If the printed predicate is all ones on four arrays of extended reals, the first three hold real numbers. -/
theorem reals_of_pre (a0 : FVec Ideal S10000x10000 .f32) (a1 : FVec Ideal S10000x128 .f32) (a2 : FVec Ideal S128x128 .f32)
    (a3 : FVec Ideal S128 .f32) (h : fn (F := Ideal) a0 a1 a2 a3 = fun _ => 1#1) :
    (∀ i, ∃ x : ℝ, a0 i = (x : EReal)) ∧ (∀ i, ∃ x : ℝ, a1 i = (x : EReal)) ∧ (∀ i, ∃ x : ℝ, a2 i = (x : EReal)) := by
  have e := congrFun h (fun d => d.elim0)
  dsimp only [fn, fn_part1] at e
  obtain ⟨e012, -⟩ := IntOp.andi_eq_one.1 e
  obtain ⟨e01, e2⟩ := IntOp.andi_eq_one.1 e012
  obtain ⟨e0, e1⟩ := IntOp.andi_eq_one.1 e01
  exact ⟨real_of_all a0 _ _ _ _ e0, real_of_all a1 _ _ _ _ e1, real_of_all a2 _ _ _ _ e2⟩

end Cert.Pre_finite_inputs.Decode

end
-- ==== Proof.lean ====
/-
  A graph-convolution layer, sigmoid (A · (X · W) + b), computed by one fused kernel as sigmoid ((A · X) · W + b).

  A is the 10000 × 10000 adjacency matrix, X the 10000 × 128 feature matrix, W the 128 × 128 weight matrix and b the
  bias vector. The kernel walks 25 grid steps; at step t it reads two 200-row blocks of A, rows 200 t … of the upper
  half and rows 200 (t + 25) … of the lower half, through two windows onto the same array, multiplies each into X
  and then into W, adds the bias row, applies the logistic function, and stores the two 200 × 128 results into the
  upper and the lower output array; the host then stacks the two output arrays.

  The frames: every weakly fair execution ends without a fault and the four argument arrays end as launched. For the
  kernel (at the word-level values and at the ideal values alike) the step's triple, the contents of the seven staging
  buffers from step to step and the launch are proved once for any float values; the adjacency array, handed to the
  pipeline twice, is split into two halves of its share, one for each of the windows that read it, and the stacking
  after the region is run from the region's exit within the two output arrays and the result array. The reference has
  no kernel: its frame is its run with the result dropped.

  The value: at the ideal values the logistic function of the kernel IS 1 / (1 + e^(-x)), the reference's expansion,
  and a product into a zero accumulator is the plain sum of products; so entry (r, j) of the kernel's result is the
  logistic function of Σ_f (Σ_k A (r, k) X (k, f)) W (f, j) + b j and of the reference's the logistic function of
  Σ_k A (r, k) (Σ_f X (k, f) W (f, j)) + b j. Those agree where A, X and W hold real numbers, which is what the
  precondition (every input finite) says: both are then the same finite double sum. On the extended reals
  themselves the two differ (a product does not distribute over a sum at the infinities), so the precondition is used.

  Nothing was rewritten by the ideal pass, so the idealized kernel is the kernel's own text read at the ideal values.
-/
import proofs.«110271_g65781719105877_cont_9to1c4b_269_13_alg».proof.Defs
import proofs.«110271_g65781719105877_cont_9to1c4b_269_13_alg».proof.Proof.Gen.Kernel
import proofs.«110271_g65781719105877_cont_9to1c4b_269_13_alg».proof.Proof.Gen.KernelIdeal
import proofs.«110271_g65781719105877_cont_9to1c4b_269_13_alg».proof.Proof.Gen.ReferenceIdeal
import proofs.«110271_g65781719105877_cont_9to1c4b_269_13_alg».proof.Proof.Gen.ReferenceIdeal.Run
import proofs.«110271_g65781719105877_cont_9to1c4b_269_13_alg».proof.Proof.Gen.ReferenceIdeal.Read
import proofs.«110271_g65781719105877_cont_9to1c4b_269_13_alg».proof.Proof.Gen.Pre_finite_inputs
import proofs.«110271_g65781719105877_cont_9to1c4b_269_13_alg».proof.Proof.LaunchBits
import proofs.«110271_g65781719105877_cont_9to1c4b_269_13_alg».proof.Proof.LaunchIdeal
import proofs.«110271_g65781719105877_cont_9to1c4b_269_13_alg».proof.Proof.ArrayValueIdeal
import proofs.«110271_g65781719105877_cont_9to1c4b_269_13_alg».proof.Proof.StackIdeal
import proofs.«110271_g65781719105877_cont_9to1c4b_269_13_alg».proof.Proof.RefSide
import proofs.«110271_g65781719105877_cont_9to1c4b_269_13_alg».proof.Proof.FiniteInputs
import proofs.«110271_g65781719105877_cont_9to1c4b_269_13_alg».proof.Proof.Layer
import Idealize.ShloMosaic.Adequacy
import Idealize.ShloMosaic.Init

noncomputable section

namespace Cert.Proof

open Idealize.ShloMosaic Idealize.ShloMosaic.TcCoe Idealize.SL.Sem

/-- The kernel's result array at the ideal values is the layer of the launched arrays, rows first: the two output
    arrays hold its upper and its lower half, and the result array is the two stacked. -/
theorem kernel_result_is_layer (m : (ℓ : Loc Cert.KernelIdeal.nD Cert.KernelIdeal.τ Cert.KernelIdeal.sig) → Buf (Elt Ideal) ℓ)
    (c : Dev Cert.KernelIdeal.nD) :
    Cert.KernelIdeal.Hand.result m c = Cert.KernelIdeal.Hand.layerOf m c := by
  unfold Cert.KernelIdeal.Hand.result
  exact Cert.KernelIdeal.Hand.stack_halves _ _ _ (Cert.KernelIdeal.Hand.upper_final m c) (Cert.KernelIdeal.Hand.lower_final m c)

theorem frame_kernel : Cert.frame_Kernel := fun m ρ _ => Cert.Kernel.Hand.frame m ρ

theorem frame_kernel_ideal : Cert.frame_KernelIdeal := fun m ρ _ => Cert.KernelIdeal.Hand.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the layer of the kernel's launched arrays, rows first: the kernel's by its
    run and `kernel_result_is_layer`; the reference's ends at the weights-first arrangement of arrays that agree
    with the kernel's, and on finite inputs the two arrangements are one function. -/
theorem algebraic : Cert.algebraic_KernelIdeal_ReferenceIdeal := by
  intro m ρ m' ρ' hpre hagree
  refine ⟨fun c => Cert.KernelIdeal.Hand.result m c, Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨hA, hX, hW⟩ := Cert.Pre_finite_inputs.Decode.reals_of_pre _ _ _ _ (hpre c)
  rw [Cert.ReferenceIdeal.Read.val_main_v10_eq, Cert.ReferenceIdeal.RefValue.reference_is_layer,
    (hagree c).1, (hagree c).2.1, (hagree c).2.2.1, (hagree c).2.2.2,
    ← Cert.Layer.layer_arrangements_agree _ _ _ _ hA hX hW]
  exact (kernel_result_is_layer m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
